-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S50000x3 : Shape := ⟨2, ![50000, 3]⟩
abbrev S291x128 : Shape := ⟨2, ![291, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S50000x3 : S_.BroadcastsInDim S50000x3 (![] : Fin 0 → Fin S50000x3.rank)
  reducesTo_S50000x3_S_d0_1 : S50000x3.ReducesTo [0, 1] S_
  bcast_S_S291x128 : S_.BroadcastsInDim S291x128 (![] : Fin 0 → Fin S291x128.rank)
  reducesTo_S291x128_S_d0_1 : S291x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256x128 .f32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S291x128 1) : IVec S_ 1 :=
  let main_c_5 : IVec S_ 1 := constantI S_ 1 1#1
  let main_v17 : IVec S_ 1 := (fun x v => Host.reduce IntOp.andi x v reducesTo_S291x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S800000x32 .f32) (main_arg3 : FVec F S50000x3 .f32) (main_arg4 : FVec F S291x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S50000x3 .f32 := Host.absf main_arg3
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S291x128 .f32 := Host.absf main_arg4
  let main_cst_4 : FVec F S_ .f32 := constant S_ .f32 0x7F800000#32
  let main_v15 : FVec F S291x128 .f32 := broadcastInDim S291x128 ![] bcast_S_S291x128 main_cst_4
  let main_v16 : IVec S291x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S50000x3 : Shape := ⟨2, ![50000, 3]⟩
abbrev S291x128 : Shape := ⟨2, ![291, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x291 : Shape := ⟨2, ![800000, 291]⟩
abbrev S800768x291 : Shape := ⟨2, ![800768, 291]⟩
abbrev S800768x128 : Shape := ⟨2, ![800768, 128]⟩
abbrev S2048x291 : Shape := ⟨2, ![2048, 291]⟩
abbrev S2048x128 : Shape := ⟨2, ![2048, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 68
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S50000x3, .f32⟩
  | .hbm, ⟨4, _⟩ => ⟨S291x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x3, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x3, .f32⟩
  | .hbm, ⟨36, _⟩ => ⟨S800000x3, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x291, .f32⟩
  | .hbm, ⟨56, _⟩ => ⟨S_, .i32⟩
  | .hbm, ⟨57, _⟩ => ⟨S_, .f32⟩
  | .hbm, ⟨58, _⟩ => ⟨S800768x291, .f32⟩
  | .hbm, ⟨59, _⟩ => ⟨S800768x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S128x128, .f32⟩
  | .hbm, ⟨66, _⟩ => ⟨S128x128, .f32⟩
  | .hbm, ⟨67, _⟩ => ⟨S50000x128, .f32⟩
  | .local _ .vmem, ⟨0, _⟩ => ⟨S2048x291, .f32⟩
  | .local _ .vmem, ⟨1, _⟩ => ⟨S2048x291, .f32⟩
  | .local _ .vmem, ⟨2, _⟩ => ⟨S291x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S2048x128, .f32⟩
  | .local _ .vmem, ⟨7, _⟩ => ⟨S2048x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_call0_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![391], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x291 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S291x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x32_S800000x3_S800000x291_d1 : Shape.Concatenates [S800000x128, S800000x128, S800000x32, S800000x3] S800000x291 1
  pads_S800000x291_S800768x291_07680_000 : S800000x291.Pads (![0, 0] : Fin 2 → Nat) ![768, 0] ![0, 0] S800768x291
  h_S_ : 0 < S_.numel
  inb_S2048x291_S2048x291_0_0 : ∀ a, (![0, 0] : Fin 2 → Nat) a + S2048x291.size a ≤ S2048x291.size a
  h_S2048x291 : 0 < S2048x291.numel
  shapeCasts_S2048x291_S2048x291 : S2048x291.ShapeCasts S2048x291
  bitsLt_bf16_f32 : FTy.bits .bf16 < FTy.bits .f32
  inb_S291x128_S291x128_0_0 : ∀ a, (![0, 0] : Fin 2 → Nat) a + S291x128.size a ≤ S291x128.size a
  h_S291x128 : 0 < S291x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  slices_S800768x128_S800000x128_0_0 : S800768x128.Slices ![0, 0] S800000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S2048x291_S291x128_S2048x128_1_0_0_1_n_n_wf : DotDims.WF S2048x291 S291x128 S2048x128 [1] [0] [0] [1] [] []
  dot_S2048x128_S128x128_S2048x128_1_0_0_1_n_n_wf : DotDims.WF S2048x128 S128x128 S2048x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x291.size a ≤ S800768x291.size a
  hwx0_0 : ∀ i : grid0.Coords, EltTy.bits .f32 = 32 ∨ (Rect.block (s := S800768x291) S2048x291.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S291x128.size a ≤ S291x128.size a
  hwx0_1 : ∀ i : grid0.Coords, EltTy.bits .f32 = 32 ∨ (Rect.block (s := S291x128) S291x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S800768x128.size a
  hwx0_5 : ∀ i : grid0.Coords, EltTy.bits .f32 = 32 ∨ (Rect.block (s := S800768x128) S2048x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S2048x291_S291x128_S2048x128_1_0_0_1_n_n : DotDims S2048x291 S291x128 S2048x128 where
  lhsContracting := [1]
  rhsContracting := [0]
  lhsNonContracting := [0]
  rhsNonContracting := [1]
  lhsBatch := []
  rhsBatch := []
  wf := dot_S2048x291_S291x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v34) S2048x291.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S291x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S50000x3 : Shape := ⟨2, ![50000, 3]⟩
abbrev S291x128 : Shape := ⟨2, ![291, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x291 : Shape := ⟨2, ![800000, 291]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S50000x3, .f32⟩
  | .hbm, ⟨4, _⟩ => ⟨S291x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x3, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x3, .f32⟩
  | .hbm, ⟨36, _⟩ => ⟨S800000x3, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x291, .f32⟩
  | .hbm, ⟨56, _⟩ => ⟨S800000x128, .f32⟩
  | .hbm, ⟨57, _⟩ => ⟨S1x128, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S800000x128, .f32⟩
  | .hbm, ⟨64, _⟩ => ⟨S1x128, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S50000x256, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000, .f32⟩
  | .hbm, ⟨86, _⟩ => ⟨S50000x1, .f32⟩
  | .hbm, ⟨87, _⟩ => ⟨S_, .f32⟩
  | .hbm, ⟨88, _⟩ => ⟨S50000x1, .f32⟩
  | .hbm, ⟨89, _⟩ => ⟨S50000x1, .f32⟩
  | .hbm, ⟨90, _⟩ => ⟨S_, .i32⟩
  | .hbm, ⟨91, _⟩ => ⟨S_, .f32⟩
  | .hbm, ⟨92, _⟩ => ⟨S50000, .f32⟩
  | .hbm, ⟨93, _⟩ => ⟨S50000x1, .f32⟩
  | .hbm, ⟨94, _⟩ => ⟨S_, .f32⟩
  | .hbm, ⟨95, _⟩ => ⟨S50000x1, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S50000, .f32⟩
  | .hbm, ⟨105, _⟩ => ⟨S50000x1, .f32⟩
  | .hbm, ⟨106, _⟩ => ⟨S50000x1, .f32⟩
  | .hbm, ⟨107, _⟩ => ⟨S50000x1, .f32⟩
  | .hbm, ⟨108, _⟩ => ⟨S_, .f32⟩
  | .hbm, ⟨109, _⟩ => ⟨S_, .i1⟩
  | .hbm, ⟨110, _⟩ => ⟨S_, .f32⟩
  | .hbm, ⟨111, _⟩ => ⟨S_, .f32⟩
  | .hbm, ⟨112, _⟩ => ⟨S50000x1, .f32⟩
  | .hbm, ⟨113, _⟩ => ⟨S50000x1, .f32⟩
  | .hbm, ⟨114, _⟩ => ⟨S50000x128, .f32⟩
  | .hbm, ⟨115, _⟩ => ⟨S50000x128, .f32⟩
  | .hbm, ⟨116, _⟩ => ⟨S_, .f32⟩
  | .hbm, ⟨117, _⟩ => ⟨S50000x1, .f32⟩
  | .hbm, ⟨118, _⟩ => ⟨S50000x1, .f32⟩
  | .hbm, ⟨119, _⟩ => ⟨S50000x1, .f32⟩
  | .hbm, ⟨120, _⟩ => ⟨S50000x128, .f32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | .hbm, ⟨125, _⟩ => ⟨S1x128, .f32⟩
  | .hbm, ⟨126, _⟩ => ⟨S50000x128, .f32⟩
  | .hbm, ⟨127, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call0_cst : Ref sig .tc := ⟨.hbm, 60, rfl⟩
abbrev main_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_c_9 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_v12 : Ref sig .tc := ⟨.hbm, 107, rfl⟩
abbrev main_call2_cst_3 : Ref sig .tc := ⟨.hbm, 108, rfl⟩
abbrev main_call2_v13 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_10 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x32_S800000x3_S800000x291_d1 : Shape.Concatenates [S800000x128, S800000x128, S800000x32, S800000x3] S800000x291 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x291_S291x128_S800000x128_1_0_0_1_n_n_wf : DotDims.WF S800000x291 S291x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x291_S291x128_S800000x128_1_0_0_1_n_n : DotDims S800000x291 S291x128 S800000x128 where
  lhsContracting := [1]
  rhsContracting := [0]
  lhsNonContracting := [0]
  rhsNonContracting := [1]
  lhsBatch := []
  rhsBatch := []
  wf := dot_S800000x291_S291x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KR0.lean ====
/-
  The edge-message region of the kernel program as printed, at the buffer contents `V` it is entered from.

  The region walks the 391 blocks of 2048 rows of the padded feature array. At a block it holds five inputs — the
  2048 × 291 block of features and the whole of the two weight matrices and two bias vectors, which never move — and
  one output, the 2048 × 128 block of messages. The body loads the five, computes one value from them (the payload
  `k0_pay1`: the two-layer perceptron of every row) and stores it over the whole output block; it writes nothing
  else. So after the body the inputs' buffers hold what they held and the output's holds that one value, which is all
  the pipeline needs to know of the body: the proof data `dat0` records it, and `body_obligation0` is the body's
  triple at every block.
-/
import proofs.«149764_j29669634081214_1_alg».proof.Proof.Gen.Kernel.Launch
import proofs.«149764_j29669634081214_1_alg».proof.Proof.Gen.Kernel.Skeleton
import proofs.«149764_j29669634081214_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, whether the block was fetched there or
    stayed from the point before (the block index did not move), for any proof data whose array is `V`'s and whose
    body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S2048x291 := Rect.unit (s := S2048x291) ![0, 0] S2048x291.size inb_S2048x291_S2048x291_0_0
abbrev r0_1 : Rect S291x128 := Rect.unit (s := S291x128) ![0, 0] S291x128.size inb_S291x128_S291x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_5 : Rect S2048x128 := Rect.unit (s := S2048x128) ![0, 0] S2048x128.size inb_S2048x128_S2048x128_0_0

/-! ## What the body leaves in the output window's buffer -/

/-- The output block after the body, from the five input blocks: one store of the payload over the whole block. -/
def out0_5 (x0 : Vec F S2048x291 .f32) (x1 : Vec F S291x128 .f32) (x2 : Vec F S128 .f32) (x3 : Vec F S128x128 .f32) (x4 : Vec F S128 .f32) :
    Vec F S2048x128 .f32 :=
  View.canon [⟨r0_5, k0_pay1 (View.ld x0 r0_0) (View.ld x1 r0_1) (View.ld x2 r0_2) (View.ld x3 r0_3) (View.ld x4 r0_2)⟩]

/-- The one store covers the block. -/
theorem cover0_5 (p0 : Vec F S2048x128 .f32) (y : S2048x128.Idx) :
    ∃ pc ∈ ([⟨r0_5, p0⟩] : List (View.Piece (Elt F) S2048x128 .f32)), y ∈ pc.1.set :=
  View.cover_of_tiled [⟨r0_5, p0⟩] S2048x128.size (by rfl) y

/-! ## The body's triple -/

set_option maxHeartbeats 1000000 in
/-- The body on whole staging buffers, the inputs' at contents `x0 … x4` and the output's at anything, runs to the
    continuation with the inputs' as they were and the output's at `out0_5` of them. -/
theorem sound_kernel0 (c : Dev nD) (E : Set ℕ) (i : grid0.Coords)
    (arg1 : Memref sig .tc .vmem S2048x291 .f32) (harg1 : arg1.IsWhole) (arg2 : Memref sig .tc .vmem S291x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2048x128 .f32) (harg6 : arg6.IsWhole)
    (x0 : Vec F S2048x291 .f32) (x1 : Vec F S291x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__message_mlp_kernel i arg1 harg1 arg2 harg2 arg3 harg3 arg4 harg4 arg5 harg5 arg6 harg6) K := by
  simp only [cc0__message_mlp_kernel_eq_skeleton]; unfold cc0__message_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the region on core `c`: the arrays as the region finds them; after the body at point `t` each
    input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
import proofs.«149764_j29669634081214_1_alg».proof.Proof.Gen.Kernel.Launch
import proofs.«149764_j29669634081214_1_alg».proof.Proof.Gen.Kernel.Skeleton
import proofs.«149764_j29669634081214_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The node-update layer (second kernel region): what one grid step leaves in its output block

The region walks the 50000 node rows in ten blocks of 5000. At a step it reads the block of node
features `x` and of aggregated messages `a`, and the whole of the two weight halves, the hidden bias,
the output weights and bias, and the layer norm's scale and shift; it writes one block of the result.
Everything is stated relative to an arbitrary valuation `V` of the core's buffers at the moment the
region is entered.

* `iblk1 V c w t`: the block of window `w` at step `t`, read off `V`.
* `out1_9`: the output block as a closed function of the nine input blocks: the single whole-block
  store, whose payload is the layer norm of `x + relu(x·W1x + a·W1a + b1)·W2 + b2`.
* `dat1`: the step-indexed description of every staging buffer after the body (inputs unchanged,
  the output at `out1_9` of the inputs), and `body_obligation1`: the body meets it at every step.
-/

-- membership in a rectangle of 5000 rows: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at step `t`: the rows (or the whole array) its index map selects, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds that input's block at EVERY step, whether or not a transfer happened there:
where no transfer happens the block index has not moved since the last one, so the buffer still holds the
right block. This holds for any description whose array is `V`'s and whose body leaves the buffer alone. The
row-blocked inputs (0, 1) move at every step; the whole-array inputs (2..8) are brought in once, at the first. -/

/-- Input 0 (the node-feature block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input 1 (the aggregated-message block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input 2 (the first weight half (acting on the features)). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input 3 (the second weight half (acting on the messages)). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input 4 (the hidden bias). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input 5 (the output weights). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input 6 (the output bias). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input 7 (the layer norm's scale). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input 8 (the layer norm's shift). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole of a buffer -/

abbrev r1_9 : Rect S5000x128 := Rect.unit (s := S5000x128) ![0, 0] S5000x128.size inb_S5000x128_S5000x128_0_0
abbrev r1_m : Rect S128x128 := Rect.unit (s := S128x128) ![0, 0] S128x128.size inb_S128x128_S128x128_0_0
abbrev r1_v : Rect S128 := Rect.unit (s := S128) ![0] S128.size inb_S128_S128_0

/-! ## What the body leaves in the output buffer -/

/-- The output block from the nine input blocks. With `r = x + relu(x·W1x + a·W1a + b1)·W2 + b2` (rows of `x0`, `x1`;
    `x2`, `x3` the weight halves, `x4` the hidden bias, `x5`, `x6` the output weights and bias), the first payload
    argument is `r` minus its row mean, the second the row sums of its square, the third the constant 128; the
    store's payload divides, adds ε, takes the reciprocal root, scales the centred rows and applies the scale `x7`
    and shift `x8`. One store over the whole block, so the list of pieces has one entry. -/
def out1_9 (x0 x1 : Vec F S5000x128 .f32) (x2 x3 : Vec F S128x128 .f32) (x4 : Vec F S128 .f32) (x5 : Vec F S128x128 .f32)
    (x6 x7 x8 : Vec F S128 .f32) : Vec F S5000x128 .f32 :=
  View.canon [⟨r1_9, k1_pay1 (k1_pay2 (View.ld x0 r1_9) (View.ld x1 r1_9) (View.ld x2 r1_m) (View.ld x3 r1_m) (View.ld x4 r1_v) (View.ld x5 r1_m) (View.ld x6 r1_v))
    (k1_pay3 (View.ld x0 r1_9) (View.ld x1 r1_9) (View.ld x2 r1_m) (View.ld x3 r1_m) (View.ld x4 r1_v) (View.ld x5 r1_m) (View.ld x6 r1_v))
    (k1_pay4 (F := F)) (View.ld x7 r1_v) (View.ld x8 r1_v)⟩]

/-- The one store is the whole block: a tiling by a single tile, so every index is covered. -/
theorem cover1_9 (p0 : Vec F S5000x128 .f32) (y : S5000x128.Idx) :
    ∃ pc ∈ ([⟨r1_9, p0⟩] : List (View.Piece (Elt F) S5000x128 .f32)), y ∈ pc.1.set :=
  View.cover_of_tiled [⟨r1_9, p0⟩] S5000x128.size (by rfl) y

/-! ## The body's triple -/

set_option maxHeartbeats 4000000 in
/-- The body, run on whole staging buffers with the inputs at read contents `x0 … x8` and the output at anything,
    ends with the inputs as they were and the output at `out1_9` of them: its ten loads read the buffers whole
    (the read of the output buffer is of a value nothing uses), and its one store overwrites the output whole. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S5000x128 .f32) (harg10 : arg10.IsWhole)
    (x0 : Vec F S5000x128 .f32) (x1 : Vec F S5000x128 .f32) (x2 : Vec F S128x128 .f32) (x3 : Vec F S128x128 .f32) (x4 : Vec F S128 .f32) (x5 : Vec F S128x128 .f32) (x6 : Vec F S128 .f32) (x7 : Vec F S128 .f32) (x8 : Vec F S128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare (out1_9 x0 x1 x2 x3 x4 x5 x6 x7 x8)) -∗ K ⟨⟩))
      ⊢ wp frame (wpE (defs₀ (F := F)) Variants.none c none) E (cc1__update_mlp_kernel i arg1 harg1 arg2 harg2 arg3 harg3 arg4 harg4 arg5 harg5 arg6 harg6 arg7 harg7 arg8 harg8 arg9 harg9 arg10 harg10) K := by
  simp only [cc1__update_mlp_kernel_eq_skeleton]; unfold cc1__update_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The region's step-indexed description -/

/-- On core `c`: the arrays as the region finds them (`V`); after the body at step `t` each input buffer still at its
    block and the output buffer at `out1_9` of the input blocks; the invariant is the one of a body that touches
    nothing else (the other scoped buffers and the generator register pass through); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- Its arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every step. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic step -/

/-- What the body is called with at step `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 2000000 in
/-- The body at any step: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body meets the description at every step. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The kernel program as printed's run, segment by segment.

  @main is five items: the host operations that build the padded edge features (a stretch of 43 and the padding
  call's 2), the edge-message region, the seven host operations that slice the messages, sum them at their
  destination nodes and halve the update weights, and the node-update region. The contents of the TensorCore's
  unscoped buffers at the six boundaries are a fold from the launch memory: a host stretch applies its operations
  (`StableHlo.after`), a region replaces its arrays by what its write-backs leave (`Dat.arrAt … N`) and touches
  nothing else. Each item is a segment entered at one boundary's contents and left at the next's, and the launch
  theorem for a list of segments gives the run: every weakly fair execution terminates, faultless, with every
  unscoped buffer at the last boundary's contents `W5`.
-/
import proofs.«149764_j29669634081214_1_alg».proof.Proof.KR0
import proofs.«149764_j29669634081214_1_alg».proof.Proof.KR1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the 43 host operations that build the edge features. -/
abbrev W1 : Dev nD → Valuation τ sig (Elt F) := fun c => StableHlo.after hostOps0 (W0 m ρ c)
/-- After the padding call: the edge-message region's entry. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- At the edge-message region's exit: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the seven host operations between the regions: the node-update region's entry. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b
/-- At the node-update region's exit, which is the program's end. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W2`, left at `W3`. Its arrays are
    split out of the unscoped buffers on entry and put back at their exit contents; the generator register goes into
    the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays are
    split out of the unscoped buffers on entry and put back at their exit contents; the generator register goes into
    the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ) ]

set_option backward.isDefEq.respectTransparency.types false in
/-- THE RUN: from any memory with zero counters, every weakly fair execution of @main terminates, nothing faulting,
    and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.KKeep.lean ====
/-
  No item of the kernel program as printed writes an argument array.

  The boundary contents `W1 … W5` are folds from the launch memory. A host stretch changes only the buffers its
  operations write, and a region only its output window's array; an argument array is neither, so at every boundary
  it still holds the launch memory's contents — read through the fold directly, or, where the argument is an input
  window's array, through what the pipeline leaves of an input array, which is what it found. With the run this gives
  the program's frame, and names the result buffer's final contents.
-/
import proofs.«149764_j29669634081214_1_alg».proof.Proof.KRun
import proofs.«149764_j29669634081214_1_alg».proof.Proof.Gen.Kernel.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.StableHlo
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## A buffer no item writes keeps its launch contents -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W4_of (c : Dev nD) (r : Ref sig .tc) (h : r ∉ hostOps1_W) : W4 m ρ c (Proc.devRef .tc r) = W3 m ρ c (Proc.devRef .tc r) :=
  StableHlo.after_of_writes_sub hostOps1 _ hostOps1_writes h

theorem W2_keep (c : Dev nD) (r : Ref sig .tc) (h2 : r ∉ hostOps0_1_W) (h1 : r ∉ hostOps0_W) :
    W2 m ρ c (Proc.devRef .tc r) = m ((c : Thread nD τ).loc r) :=
  (W2_of m ρ c r h2).trans ((W1_of m ρ c r h1).trans rfl)

/-- An input array of the edge-message region leaves the region as it entered. -/
theorem W3_in (c : Dev nD) (w : Fin cfg0.W) (hin : (cfg0.win w).isOut = false) (h2 : Pipeline.arrRef spec0 w ∉ hostOps0_1_W)
    (h1 : Pipeline.arrRef spec0 w ∉ hostOps0_W) :
    W3 m ρ c (Proc.devRef .tc (Pipeline.arrRef spec0 w)) = m ((c : Thread nD τ).loc (Pipeline.arrRef spec0 w)) :=
  (W3_arr m ρ c w).trans (((dat0 (V2 m ρ) c).arrAt_in w hin _).trans ((A_eq0 (V2 m ρ) c w).trans (W2_keep m ρ c _ h2 h1)))

theorem W4_keep (c : Dev nD) (r : Ref sig .tc) (h4 : r ∉ hostOps1_W) (h3 : ∀ w, Pipeline.arrRef spec0 w ≠ r)
    (h2 : r ∉ hostOps0_1_W) (h1 : r ∉ hostOps0_W) : W4 m ρ c (Proc.devRef .tc r) = m ((c : Thread nD τ).loc r) :=
  (W4_of m ρ c r h4).trans ((W3_of_ne m ρ c r h3).trans (W2_keep m ρ c r h2 h1))

/-! ## The arguments at the node-update region's entry and at the end -/

theorem W4_main_arg0 (c : Dev nD) : W4 m ρ c (Proc.devRef .tc main_arg0) = m ((c : Thread nD τ).loc main_arg0) :=
  W4_keep m ρ c main_arg0 (by decide) (by decide) (by decide) (by decide)
theorem W4_main_arg1 (c : Dev nD) : W4 m ρ c (Proc.devRef .tc main_arg1) = m ((c : Thread nD τ).loc main_arg1) :=
  W4_keep m ρ c main_arg1 (by decide) (by decide) (by decide) (by decide)
theorem W4_main_arg2 (c : Dev nD) : W4 m ρ c (Proc.devRef .tc main_arg2) = m ((c : Thread nD τ).loc main_arg2) :=
  W4_keep m ρ c main_arg2 (by decide) (by decide) (by decide) (by decide)
theorem W4_main_arg3 (c : Dev nD) : W4 m ρ c (Proc.devRef .tc main_arg3) = m ((c : Thread nD τ).loc main_arg3) :=
  W4_keep m ρ c main_arg3 (by decide) (by decide) (by decide) (by decide)
theorem W4_main_arg8 (c : Dev nD) : W4 m ρ c (Proc.devRef .tc main_arg8) = m ((c : Thread nD τ).loc main_arg8) :=
  W4_keep m ρ c main_arg8 (by decide) (by decide) (by decide) (by decide)
theorem W4_main_arg9 (c : Dev nD) : W4 m ρ c (Proc.devRef .tc main_arg9) = m ((c : Thread nD τ).loc main_arg9) :=
  W4_keep m ρ c main_arg9 (by decide) (by decide) (by decide) (by decide)
theorem W4_main_arg10 (c : Dev nD) : W4 m ρ c (Proc.devRef .tc main_arg10) = m ((c : Thread nD τ).loc main_arg10) :=
  W4_keep m ρ c main_arg10 (by decide) (by decide) (by decide) (by decide)
theorem W4_main_arg11 (c : Dev nD) : W4 m ρ c (Proc.devRef .tc main_arg11) = m ((c : Thread nD τ).loc main_arg11) :=
  W4_keep m ρ c main_arg11 (by decide) (by decide) (by decide) (by decide)
theorem W4_main_arg12 (c : Dev nD) : W4 m ρ c (Proc.devRef .tc main_arg12) = m ((c : Thread nD τ).loc main_arg12) :=
  W4_keep m ρ c main_arg12 (by decide) (by decide) (by decide) (by decide)
theorem W4_main_arg13 (c : Dev nD) : W4 m ρ c (Proc.devRef .tc main_arg13) = m ((c : Thread nD τ).loc main_arg13) :=
  W4_keep m ρ c main_arg13 (by decide) (by decide) (by decide) (by decide)

theorem W5_main_arg0 (c : Dev nD) : W5 m ρ c (Proc.devRef .tc main_arg0) = m ((c : Thread nD τ).loc main_arg0) :=
  (W5_arr m ρ c 0).trans (((dat1 (V4 m ρ) c).arrAt_in 0 rfl _).trans ((A_eq1 (V4 m ρ) c 0).trans (W4_main_arg0 m ρ c)))
theorem W5_main_arg1 (c : Dev nD) : W5 m ρ c (Proc.devRef .tc main_arg1) = m ((c : Thread nD τ).loc main_arg1) :=
  (W5_of_ne m ρ c main_arg1 (by decide)).trans (W4_keep m ρ c main_arg1 (by decide) (by decide) (by decide) (by decide))
theorem W5_main_arg2 (c : Dev nD) : W5 m ρ c (Proc.devRef .tc main_arg2) = m ((c : Thread nD τ).loc main_arg2) :=
  (W5_of_ne m ρ c main_arg2 (by decide)).trans (W4_keep m ρ c main_arg2 (by decide) (by decide) (by decide) (by decide))
theorem W5_main_arg3 (c : Dev nD) : W5 m ρ c (Proc.devRef .tc main_arg3) = m ((c : Thread nD τ).loc main_arg3) :=
  (W5_of_ne m ρ c main_arg3 (by decide)).trans (W4_keep m ρ c main_arg3 (by decide) (by decide) (by decide) (by decide))
theorem W5_main_arg4 (c : Dev nD) : W5 m ρ c (Proc.devRef .tc main_arg4) = m ((c : Thread nD τ).loc main_arg4) :=
  (W5_of_ne m ρ c main_arg4 (by decide)).trans ((W4_of m ρ c main_arg4 (by decide)).trans (W3_in m ρ c 1 rfl (by decide) (by decide)))
theorem W5_main_arg5 (c : Dev nD) : W5 m ρ c (Proc.devRef .tc main_arg5) = m ((c : Thread nD τ).loc main_arg5) :=
  (W5_of_ne m ρ c main_arg5 (by decide)).trans ((W4_of m ρ c main_arg5 (by decide)).trans (W3_in m ρ c 2 rfl (by decide) (by decide)))
theorem W5_main_arg6 (c : Dev nD) : W5 m ρ c (Proc.devRef .tc main_arg6) = m ((c : Thread nD τ).loc main_arg6) :=
  (W5_of_ne m ρ c main_arg6 (by decide)).trans ((W4_of m ρ c main_arg6 (by decide)).trans (W3_in m ρ c 3 rfl (by decide) (by decide)))
theorem W5_main_arg7 (c : Dev nD) : W5 m ρ c (Proc.devRef .tc main_arg7) = m ((c : Thread nD τ).loc main_arg7) :=
  (W5_of_ne m ρ c main_arg7 (by decide)).trans ((W4_of m ρ c main_arg7 (by decide)).trans (W3_in m ρ c 4 rfl (by decide) (by decide)))
theorem W5_main_arg8 (c : Dev nD) : W5 m ρ c (Proc.devRef .tc main_arg8) = m ((c : Thread nD τ).loc main_arg8) :=
  (W5_of_ne m ρ c main_arg8 (by decide)).trans (W4_keep m ρ c main_arg8 (by decide) (by decide) (by decide) (by decide))
theorem W5_main_arg9 (c : Dev nD) : W5 m ρ c (Proc.devRef .tc main_arg9) = m ((c : Thread nD τ).loc main_arg9) :=
  (W5_arr m ρ c 4).trans (((dat1 (V4 m ρ) c).arrAt_in 4 rfl _).trans ((A_eq1 (V4 m ρ) c 4).trans (W4_main_arg9 m ρ c)))
theorem W5_main_arg10 (c : Dev nD) : W5 m ρ c (Proc.devRef .tc main_arg10) = m ((c : Thread nD τ).loc main_arg10) :=
  (W5_arr m ρ c 5).trans (((dat1 (V4 m ρ) c).arrAt_in 5 rfl _).trans ((A_eq1 (V4 m ρ) c 5).trans (W4_main_arg10 m ρ c)))
theorem W5_main_arg11 (c : Dev nD) : W5 m ρ c (Proc.devRef .tc main_arg11) = m ((c : Thread nD τ).loc main_arg11) :=
  (W5_arr m ρ c 6).trans (((dat1 (V4 m ρ) c).arrAt_in 6 rfl _).trans ((A_eq1 (V4 m ρ) c 6).trans (W4_main_arg11 m ρ c)))
theorem W5_main_arg12 (c : Dev nD) : W5 m ρ c (Proc.devRef .tc main_arg12) = m ((c : Thread nD τ).loc main_arg12) :=
  (W5_arr m ρ c 7).trans (((dat1 (V4 m ρ) c).arrAt_in 7 rfl _).trans ((A_eq1 (V4 m ρ) c 7).trans (W4_main_arg12 m ρ c)))
theorem W5_main_arg13 (c : Dev nD) : W5 m ρ c (Proc.devRef .tc main_arg13) = m ((c : Thread nD τ).loc main_arg13) :=
  (W5_arr m ρ c 8).trans (((dat1 (V4 m ρ) c).arrAt_in 8 rfl _).trans ((A_eq1 (V4 m ρ) c 8).trans (W4_main_arg13 m ρ c)))

/-! ## The run, read -/

/-- THE RUN, READ: every weakly fair execution of @main terminates, nothing faulting; the result buffer ends at the
    last boundary's contents and every argument array as launched. -/
theorem run_named : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v42 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c)⟩)
    (run_all m ρ)

end Cert.Kernel.Hand

end
-- ==== Proof.KiR0.lean ====
/-
  The edge-message region of the idealized kernel program, at the buffer contents `V` it is entered from.

  The region walks the 391 blocks of 2048 rows of the padded feature array. At a block it holds five inputs — the
  2048 × 291 block of features and the whole of the two weight matrices and two bias vectors, which never move — and
  one output, the 2048 × 128 block of messages. The body loads the five, computes one value from them (the payload
  `k0_pay1`: the two-layer perceptron of every row) and stores it over the whole output block; it writes nothing
  else. So after the body the inputs' buffers hold what they held and the output's holds that one value, which is all
  the pipeline needs to know of the body: the proof data `dat0` records it, and `body_obligation0` is the body's
  triple at every block.
-/
import proofs.«149764_j29669634081214_1_alg».proof.Proof.Gen.KernelIdeal.Launch
import proofs.«149764_j29669634081214_1_alg».proof.Proof.Gen.KernelIdeal.Skeleton
import proofs.«149764_j29669634081214_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point, whether the block was fetched there or
    stayed from the point before (the block index did not move), for any proof data whose array is `V`'s and whose
    body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S2048x291 := Rect.unit (s := S2048x291) ![0, 0] S2048x291.size inb_S2048x291_S2048x291_0_0
abbrev r0_1 : Rect S291x128 := Rect.unit (s := S291x128) ![0, 0] S291x128.size inb_S291x128_S291x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_5 : Rect S2048x128 := Rect.unit (s := S2048x128) ![0, 0] S2048x128.size inb_S2048x128_S2048x128_0_0

/-! ## What the body leaves in the output window's buffer -/

/-- The output block after the body, from the five input blocks: one store of the payload over the whole block. -/
def out0_5 (x0 : Vec F S2048x291 .f32) (x1 : Vec F S291x128 .f32) (x2 : Vec F S128 .f32) (x3 : Vec F S128x128 .f32) (x4 : Vec F S128 .f32) :
    Vec F S2048x128 .f32 :=
  View.canon [⟨r0_5, k0_pay1 (View.ld x0 r0_0) (View.ld x1 r0_1) (View.ld x2 r0_2) (View.ld x3 r0_3) (View.ld x4 r0_2)⟩]

/-- The one store covers the block. -/
theorem cover0_5 (p0 : Vec F S2048x128 .f32) (y : S2048x128.Idx) :
    ∃ pc ∈ ([⟨r0_5, p0⟩] : List (View.Piece (Elt F) S2048x128 .f32)), y ∈ pc.1.set :=
  View.cover_of_tiled [⟨r0_5, p0⟩] S2048x128.size (by rfl) y

/-! ## The body's triple -/

set_option maxHeartbeats 1000000 in
/-- The body on whole staging buffers, the inputs' at contents `x0 … x4` and the output's at anything, runs to the
    continuation with the inputs' as they were and the output's at `out0_5` of them. -/
theorem sound_kernel0 (c : Dev nD) (E : Set ℕ) (i : grid0.Coords)
    (arg1 : Memref sig .tc .vmem S2048x291 .f32) (harg1 : arg1.IsWhole) (arg2 : Memref sig .tc .vmem S291x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2048x128 .f32) (harg6 : arg6.IsWhole)
    (x0 : Vec F S2048x291 .f32) (x1 : Vec F S291x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__message_mlp_kernel i arg1 harg1 arg2 harg2 arg3 harg3 arg4 harg4 arg5 harg5 arg6 harg6) K := by
  simp only [cc0__message_mlp_kernel_eq_skeleton]; unfold cc0__message_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the region on core `c`: the arrays as the region finds them; after the body at point `t` each
    input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiR1.lean ====
import proofs.«149764_j29669634081214_1_alg».proof.Proof.Gen.KernelIdeal.Launch
import proofs.«149764_j29669634081214_1_alg».proof.Proof.Gen.KernelIdeal.Skeleton
import proofs.«149764_j29669634081214_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The node-update layer (second kernel region): what one grid step leaves in its output block

The region walks the 50000 node rows in ten blocks of 5000. At a step it reads the block of node
features `x` and of aggregated messages `a`, and the whole of the two weight halves, the hidden bias,
the output weights and bias, and the layer norm's scale and shift; it writes one block of the result.
Everything is stated relative to an arbitrary valuation `V` of the core's buffers at the moment the
region is entered.

* `iblk1 V c w t`: the block of window `w` at step `t`, read off `V`.
* `out1_9`: the output block as a closed function of the nine input blocks: the single whole-block
  store, whose payload is the layer norm of `x + relu(x·W1x + a·W1a + b1)·W2 + b2`.
* `dat1`: the step-indexed description of every staging buffer after the body (inputs unchanged,
  the output at `out1_9` of the inputs), and `body_obligation1`: the body meets it at every step.
-/

-- membership in a rectangle of 5000 rows: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at step `t`: the rows (or the whole array) its index map selects, read off `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds that input's block at EVERY step, whether or not a transfer happened there:
where no transfer happens the block index has not moved since the last one, so the buffer still holds the
right block. This holds for any description whose array is `V`'s and whose body leaves the buffer alone. The
row-blocked inputs (0, 1) move at every step; the whole-array inputs (2..8) are brought in once, at the first. -/

/-- Input 0 (the node-feature block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input 1 (the aggregated-message block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input 2 (the first weight half (acting on the features)). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input 3 (the second weight half (acting on the messages)). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input 4 (the hidden bias). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input 5 (the output weights). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input 6 (the output bias). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input 7 (the layer norm's scale). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input 8 (the layer norm's shift). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole of a buffer -/

abbrev r1_9 : Rect S5000x128 := Rect.unit (s := S5000x128) ![0, 0] S5000x128.size inb_S5000x128_S5000x128_0_0
abbrev r1_m : Rect S128x128 := Rect.unit (s := S128x128) ![0, 0] S128x128.size inb_S128x128_S128x128_0_0
abbrev r1_v : Rect S128 := Rect.unit (s := S128) ![0] S128.size inb_S128_S128_0

/-! ## What the body leaves in the output buffer -/

/-- The output block from the nine input blocks. With `r = x + relu(x·W1x + a·W1a + b1)·W2 + b2` (rows of `x0`, `x1`;
    `x2`, `x3` the weight halves, `x4` the hidden bias, `x5`, `x6` the output weights and bias), the first payload
    argument is `r` minus its row mean, the second the row sums of its square, the third the constant 128; the
    store's payload divides, adds ε, takes the reciprocal root, scales the centred rows and applies the scale `x7`
    and shift `x8`. One store over the whole block, so the list of pieces has one entry. -/
def out1_9 (x0 x1 : Vec F S5000x128 .f32) (x2 x3 : Vec F S128x128 .f32) (x4 : Vec F S128 .f32) (x5 : Vec F S128x128 .f32)
    (x6 x7 x8 : Vec F S128 .f32) : Vec F S5000x128 .f32 :=
  View.canon [⟨r1_9, k1_pay1 (k1_pay2 (View.ld x0 r1_9) (View.ld x1 r1_9) (View.ld x2 r1_m) (View.ld x3 r1_m) (View.ld x4 r1_v) (View.ld x5 r1_m) (View.ld x6 r1_v))
    (k1_pay3 (View.ld x0 r1_9) (View.ld x1 r1_9) (View.ld x2 r1_m) (View.ld x3 r1_m) (View.ld x4 r1_v) (View.ld x5 r1_m) (View.ld x6 r1_v))
    (k1_pay4 (F := F)) (View.ld x7 r1_v) (View.ld x8 r1_v)⟩]

/-- The one store is the whole block: a tiling by a single tile, so every index is covered. -/
theorem cover1_9 (p0 : Vec F S5000x128 .f32) (y : S5000x128.Idx) :
    ∃ pc ∈ ([⟨r1_9, p0⟩] : List (View.Piece (Elt F) S5000x128 .f32)), y ∈ pc.1.set :=
  View.cover_of_tiled [⟨r1_9, p0⟩] S5000x128.size (by rfl) y

/-! ## The body's triple -/

set_option maxHeartbeats 4000000 in
/-- The body, run on whole staging buffers with the inputs at read contents `x0 … x8` and the output at anything,
    ends with the inputs as they were and the output at `out1_9` of them: its ten loads read the buffers whole
    (the read of the output buffer is of a value nothing uses), and its one store overwrites the output whole. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S5000x128 .f32) (harg10 : arg10.IsWhole)
    (x0 : Vec F S5000x128 .f32) (x1 : Vec F S5000x128 .f32) (x2 : Vec F S128x128 .f32) (x3 : Vec F S128x128 .f32) (x4 : Vec F S128 .f32) (x5 : Vec F S128x128 .f32) (x6 : Vec F S128 .f32) (x7 : Vec F S128 .f32) (x8 : Vec F S128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare (out1_9 x0 x1 x2 x3 x4 x5 x6 x7 x8)) -∗ K ⟨⟩))
      ⊢ wp frame (wpE (defs₀ (F := F)) Variants.none c none) E (cc1__update_mlp_kernel i arg1 harg1 arg2 harg2 arg3 harg3 arg4 harg4 arg5 harg5 arg6 harg6 arg7 harg7 arg8 harg8 arg9 harg9 arg10 harg10) K := by
  simp only [cc1__update_mlp_kernel_eq_skeleton]; unfold cc1__update_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The region's step-indexed description -/

/-- On core `c`: the arrays as the region finds them (`V`); after the body at step `t` each input buffer still at its
    block and the output buffer at `out1_9` of the input blocks; the invariant is the one of a body that touches
    nothing else (the other scoped buffers and the generator register pass through); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- Its arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every step. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic step -/

/-- What the body is called with at step `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 2000000 in
/-- The body at any step: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body meets the description at every step. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The idealized kernel program's run, segment by segment.

  @main is five items: the host operations that build the padded edge features (a stretch of 43 and the padding
  call's 2), the edge-message region, the seven host operations that slice the messages, sum them at their
  destination nodes and halve the update weights, and the node-update region. The contents of the TensorCore's
  unscoped buffers at the six boundaries are a fold from the launch memory: a host stretch applies its operations
  (`StableHlo.after`), a region replaces its arrays by what its write-backs leave (`Dat.arrAt … N`) and touches
  nothing else. Each item is a segment entered at one boundary's contents and left at the next's, and the launch
  theorem for a list of segments gives the run: every weakly fair execution terminates, faultless, with every
  unscoped buffer at the last boundary's contents `W5`.
-/
import proofs.«149764_j29669634081214_1_alg».proof.Proof.KiR0
import proofs.«149764_j29669634081214_1_alg».proof.Proof.KiR1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the 43 host operations that build the edge features. -/
abbrev W1 : Dev nD → Valuation τ sig (Elt F) := fun c => StableHlo.after hostOps0 (W0 m ρ c)
/-- After the padding call: the edge-message region's entry. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- At the edge-message region's exit: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the seven host operations between the regions: the node-update region's entry. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b
/-- At the node-update region's exit, which is the program's end. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W2`, left at `W3`. Its arrays are
    split out of the unscoped buffers on entry and put back at their exit contents; the generator register goes into
    the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. Its arrays are
    split out of the unscoped buffers on entry and put back at their exit contents; the generator register goes into
    the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ) ]

set_option backward.isDefEq.respectTransparency.types false in
/-- THE RUN: from any memory with zero counters, every weakly fair execution of @main terminates, nothing faulting,
    and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KiKeep.lean ====
/-
  No item of the idealized kernel program writes an argument array.

  The boundary contents `W1 … W5` are folds from the launch memory. A host stretch changes only the buffers its
  operations write, and a region only its output window's array; an argument array is neither, so at every boundary
  it still holds the launch memory's contents — read through the fold directly, or, where the argument is an input
  window's array, through what the pipeline leaves of an input array, which is what it found. With the run this gives
  the program's frame, and names the result buffer's final contents.
-/
import proofs.«149764_j29669634081214_1_alg».proof.Proof.KiRun
import proofs.«149764_j29669634081214_1_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## A buffer no item writes keeps its launch contents -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W4_of (c : Dev nD) (r : Ref sig .tc) (h : r ∉ hostOps1_W) : W4 m ρ c (Proc.devRef .tc r) = W3 m ρ c (Proc.devRef .tc r) :=
  StableHlo.after_of_writes_sub hostOps1 _ hostOps1_writes h

theorem W2_keep (c : Dev nD) (r : Ref sig .tc) (h2 : r ∉ hostOps0_1_W) (h1 : r ∉ hostOps0_W) :
    W2 m ρ c (Proc.devRef .tc r) = m ((c : Thread nD τ).loc r) :=
  (W2_of m ρ c r h2).trans ((W1_of m ρ c r h1).trans rfl)

/-- An input array of the edge-message region leaves the region as it entered. -/
theorem W3_in (c : Dev nD) (w : Fin cfg0.W) (hin : (cfg0.win w).isOut = false) (h2 : Pipeline.arrRef spec0 w ∉ hostOps0_1_W)
    (h1 : Pipeline.arrRef spec0 w ∉ hostOps0_W) :
    W3 m ρ c (Proc.devRef .tc (Pipeline.arrRef spec0 w)) = m ((c : Thread nD τ).loc (Pipeline.arrRef spec0 w)) :=
  (W3_arr m ρ c w).trans (((dat0 (V2 m ρ) c).arrAt_in w hin _).trans ((A_eq0 (V2 m ρ) c w).trans (W2_keep m ρ c _ h2 h1)))

theorem W4_keep (c : Dev nD) (r : Ref sig .tc) (h4 : r ∉ hostOps1_W) (h3 : ∀ w, Pipeline.arrRef spec0 w ≠ r)
    (h2 : r ∉ hostOps0_1_W) (h1 : r ∉ hostOps0_W) : W4 m ρ c (Proc.devRef .tc r) = m ((c : Thread nD τ).loc r) :=
  (W4_of m ρ c r h4).trans ((W3_of_ne m ρ c r h3).trans (W2_keep m ρ c r h2 h1))

/-! ## The arguments at the node-update region's entry and at the end -/

theorem W4_main_arg0 (c : Dev nD) : W4 m ρ c (Proc.devRef .tc main_arg0) = m ((c : Thread nD τ).loc main_arg0) :=
  W4_keep m ρ c main_arg0 (by decide) (by decide) (by decide) (by decide)
theorem W4_main_arg1 (c : Dev nD) : W4 m ρ c (Proc.devRef .tc main_arg1) = m ((c : Thread nD τ).loc main_arg1) :=
  W4_keep m ρ c main_arg1 (by decide) (by decide) (by decide) (by decide)
theorem W4_main_arg2 (c : Dev nD) : W4 m ρ c (Proc.devRef .tc main_arg2) = m ((c : Thread nD τ).loc main_arg2) :=
  W4_keep m ρ c main_arg2 (by decide) (by decide) (by decide) (by decide)
theorem W4_main_arg3 (c : Dev nD) : W4 m ρ c (Proc.devRef .tc main_arg3) = m ((c : Thread nD τ).loc main_arg3) :=
  W4_keep m ρ c main_arg3 (by decide) (by decide) (by decide) (by decide)
theorem W4_main_arg8 (c : Dev nD) : W4 m ρ c (Proc.devRef .tc main_arg8) = m ((c : Thread nD τ).loc main_arg8) :=
  W4_keep m ρ c main_arg8 (by decide) (by decide) (by decide) (by decide)
theorem W4_main_arg9 (c : Dev nD) : W4 m ρ c (Proc.devRef .tc main_arg9) = m ((c : Thread nD τ).loc main_arg9) :=
  W4_keep m ρ c main_arg9 (by decide) (by decide) (by decide) (by decide)
theorem W4_main_arg10 (c : Dev nD) : W4 m ρ c (Proc.devRef .tc main_arg10) = m ((c : Thread nD τ).loc main_arg10) :=
  W4_keep m ρ c main_arg10 (by decide) (by decide) (by decide) (by decide)
theorem W4_main_arg11 (c : Dev nD) : W4 m ρ c (Proc.devRef .tc main_arg11) = m ((c : Thread nD τ).loc main_arg11) :=
  W4_keep m ρ c main_arg11 (by decide) (by decide) (by decide) (by decide)
theorem W4_main_arg12 (c : Dev nD) : W4 m ρ c (Proc.devRef .tc main_arg12) = m ((c : Thread nD τ).loc main_arg12) :=
  W4_keep m ρ c main_arg12 (by decide) (by decide) (by decide) (by decide)
theorem W4_main_arg13 (c : Dev nD) : W4 m ρ c (Proc.devRef .tc main_arg13) = m ((c : Thread nD τ).loc main_arg13) :=
  W4_keep m ρ c main_arg13 (by decide) (by decide) (by decide) (by decide)

theorem W5_main_arg0 (c : Dev nD) : W5 m ρ c (Proc.devRef .tc main_arg0) = m ((c : Thread nD τ).loc main_arg0) :=
  (W5_arr m ρ c 0).trans (((dat1 (V4 m ρ) c).arrAt_in 0 rfl _).trans ((A_eq1 (V4 m ρ) c 0).trans (W4_main_arg0 m ρ c)))
theorem W5_main_arg1 (c : Dev nD) : W5 m ρ c (Proc.devRef .tc main_arg1) = m ((c : Thread nD τ).loc main_arg1) :=
  (W5_of_ne m ρ c main_arg1 (by decide)).trans (W4_keep m ρ c main_arg1 (by decide) (by decide) (by decide) (by decide))
theorem W5_main_arg2 (c : Dev nD) : W5 m ρ c (Proc.devRef .tc main_arg2) = m ((c : Thread nD τ).loc main_arg2) :=
  (W5_of_ne m ρ c main_arg2 (by decide)).trans (W4_keep m ρ c main_arg2 (by decide) (by decide) (by decide) (by decide))
theorem W5_main_arg3 (c : Dev nD) : W5 m ρ c (Proc.devRef .tc main_arg3) = m ((c : Thread nD τ).loc main_arg3) :=
  (W5_of_ne m ρ c main_arg3 (by decide)).trans (W4_keep m ρ c main_arg3 (by decide) (by decide) (by decide) (by decide))
theorem W5_main_arg4 (c : Dev nD) : W5 m ρ c (Proc.devRef .tc main_arg4) = m ((c : Thread nD τ).loc main_arg4) :=
  (W5_of_ne m ρ c main_arg4 (by decide)).trans ((W4_of m ρ c main_arg4 (by decide)).trans (W3_in m ρ c 1 rfl (by decide) (by decide)))
theorem W5_main_arg5 (c : Dev nD) : W5 m ρ c (Proc.devRef .tc main_arg5) = m ((c : Thread nD τ).loc main_arg5) :=
  (W5_of_ne m ρ c main_arg5 (by decide)).trans ((W4_of m ρ c main_arg5 (by decide)).trans (W3_in m ρ c 2 rfl (by decide) (by decide)))
theorem W5_main_arg6 (c : Dev nD) : W5 m ρ c (Proc.devRef .tc main_arg6) = m ((c : Thread nD τ).loc main_arg6) :=
  (W5_of_ne m ρ c main_arg6 (by decide)).trans ((W4_of m ρ c main_arg6 (by decide)).trans (W3_in m ρ c 3 rfl (by decide) (by decide)))
theorem W5_main_arg7 (c : Dev nD) : W5 m ρ c (Proc.devRef .tc main_arg7) = m ((c : Thread nD τ).loc main_arg7) :=
  (W5_of_ne m ρ c main_arg7 (by decide)).trans ((W4_of m ρ c main_arg7 (by decide)).trans (W3_in m ρ c 4 rfl (by decide) (by decide)))
theorem W5_main_arg8 (c : Dev nD) : W5 m ρ c (Proc.devRef .tc main_arg8) = m ((c : Thread nD τ).loc main_arg8) :=
  (W5_of_ne m ρ c main_arg8 (by decide)).trans (W4_keep m ρ c main_arg8 (by decide) (by decide) (by decide) (by decide))
theorem W5_main_arg9 (c : Dev nD) : W5 m ρ c (Proc.devRef .tc main_arg9) = m ((c : Thread nD τ).loc main_arg9) :=
  (W5_arr m ρ c 4).trans (((dat1 (V4 m ρ) c).arrAt_in 4 rfl _).trans ((A_eq1 (V4 m ρ) c 4).trans (W4_main_arg9 m ρ c)))
theorem W5_main_arg10 (c : Dev nD) : W5 m ρ c (Proc.devRef .tc main_arg10) = m ((c : Thread nD τ).loc main_arg10) :=
  (W5_arr m ρ c 5).trans (((dat1 (V4 m ρ) c).arrAt_in 5 rfl _).trans ((A_eq1 (V4 m ρ) c 5).trans (W4_main_arg10 m ρ c)))
theorem W5_main_arg11 (c : Dev nD) : W5 m ρ c (Proc.devRef .tc main_arg11) = m ((c : Thread nD τ).loc main_arg11) :=
  (W5_arr m ρ c 6).trans (((dat1 (V4 m ρ) c).arrAt_in 6 rfl _).trans ((A_eq1 (V4 m ρ) c 6).trans (W4_main_arg11 m ρ c)))
theorem W5_main_arg12 (c : Dev nD) : W5 m ρ c (Proc.devRef .tc main_arg12) = m ((c : Thread nD τ).loc main_arg12) :=
  (W5_arr m ρ c 7).trans (((dat1 (V4 m ρ) c).arrAt_in 7 rfl _).trans ((A_eq1 (V4 m ρ) c 7).trans (W4_main_arg12 m ρ c)))
theorem W5_main_arg13 (c : Dev nD) : W5 m ρ c (Proc.devRef .tc main_arg13) = m ((c : Thread nD τ).loc main_arg13) :=
  (W5_arr m ρ c 8).trans (((dat1 (V4 m ρ) c).arrAt_in 8 rfl _).trans ((A_eq1 (V4 m ρ) c 8).trans (W4_main_arg13 m ρ c)))

/-! ## The run, read -/

/-- THE RUN, READ: every weakly fair execution of @main terminates, nothing faulting; the result buffer ends at the
    last boundary's contents and every argument array as launched. -/
theorem run_named : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v42 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c)⟩)
    (run_all m ρ)

end Cert.KernelIdeal.Hand

end
-- ==== Proof.KiStages.lean ====
/-
  The host side of the idealized kernel program, as pure functions of the argument arrays.

  Up to the edge features the program does what the reference does: `srcIdx` / `dstIdx` are the two rows of the edge
  list, `wrapIdx` adds the node count to a negative index, `rowIdx` lays the result out as the column a row gather
  takes, and `msgIn` sets the source's state, the destination's state, the edge's features and the coordinate
  difference side by side. `padded` appends 768 rows of zeros so that the row count is a multiple of the block height,
  `sliced` takes the first 800000 rows back, `aggr` sums the messages at their destination nodes, and `wx` / `wa`
  are the upper and the lower half of the update layer's first weight matrix.
-/
import proofs.«149764_j29669634081214_1_alg».proof.KernelIdeal

noncomputable section

namespace Cert.KernelIdeal.Hand

open Cert.KernelIdeal Idealize.ShloMosaic
open Cert.KernelIdeal.Facts₀ Cert.KernelIdeal.Facts

variable {F : FTy → Type} [FloatOps F] [Cert.KernelIdeal.Facts]

/-- The edges' source nodes: row 0 of the edge list. -/
def srcIdx (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edges' destination nodes: row 1 of the edge list. -/
def dstIdx (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A negative node index counts from the end: `i + 50000` where `i < 0`, else `i`. -/
def wrapIdx (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 50000#32))) i

/-- The wrapped indices as the one-column array a row gather starts from. -/
def rowIdx (i : (⟨S800000, .i32⟩ : BufTy).Contents (Elt F)) : (⟨S800000x1, .i32⟩ : BufTy).Contents (Elt F) :=
  broadcastInDim S800000x1 ![0] bcast_S800000_S800000x1_0 (wrapIdx i)

/-- Every edge's input features: `[x[src], x[dst], edge_attr, coords[dst] - coords[src]]`. -/
def msgIn (x : FVec F S50000x128 .f32) (ei : (⟨S2x800000, .i32⟩ : BufTy).Contents (Elt F)) (ea : FVec F S800000x32 .f32)
    (co : FVec F S50000x3 .f32) : FVec F S800000x291 .f32 :=
  concatenate S800000x291 1
    [⟨S800000x128, Host.gather gather_S50000x128_S800000x1_S800000x128_1_0_n_n_0_1_1128 x (rowIdx (srcIdx ei))⟩,
     ⟨S800000x128, Host.gather gather_S50000x128_S800000x1_S800000x128_1_0_n_n_0_1_1128 x (rowIdx (dstIdx ei))⟩,
     ⟨S800000x32, ea⟩,
     ⟨S800000x3, subf (Host.gather gather_S50000x3_S800000x1_S800000x3_1_0_n_n_0_1_13 co (rowIdx (dstIdx ei)))
        (Host.gather gather_S50000x3_S800000x1_S800000x3_1_0_n_n_0_1_13 co (rowIdx (srcIdx ei)))⟩]
    concatenates_S800000x128_S800000x128_S800000x32_S800000x3_S800000x291_d1

/-- The edge features with 768 rows of zeros appended. -/
def padded (msg : FVec F S800000x291 .f32) : FVec F S800768x291 .f32 :=
  pad S800768x291 ![0, 0] ![768, 0] ![0, 0] msg
    (sitofp .f32 (constantI S_ 32 0#32 : (⟨S_, .i32⟩ : BufTy).Contents (Elt F))) pads_S800000x291_S800768x291_07680_000 h_S_

/-- The first 800000 rows of the padded messages. -/
def sliced (y : FVec F S800768x128 .f32) : FVec F S800000x128 .f32 :=
  extractStridedSlice S800000x128 ![0, 0] y slices_S800768x128_S800000x128_0_0

/-- The messages summed at their destination nodes. -/
def aggr (dst : (⟨S800000, .i32⟩ : BufTy).Contents (Elt F)) (msgs : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) msgs

/-- The upper half of the update layer's first weight matrix: the rows that meet the node's own state. -/
def wx (uW1 : FVec F S256x128 .f32) : FVec F S128x128 .f32 :=
  extractStridedSlice S128x128 ![0, 0] uW1 slices_S256x128_S128x128_0_0

/-- The lower half: the rows that meet the aggregated messages. -/
def wa (uW1 : FVec F S256x128 .f32) : FVec F S128x128 .f32 :=
  extractStridedSlice S128x128 ![128, 0] uW1 slices_S256x128_S128x128_128_0

end Cert.KernelIdeal.Hand

end
-- ==== Proof.KiHost.lean ====
/-
  What the host stretches leave in the buffers the regions read.

  The edge-message region is entered with the padded edge features in its first window's array; the node-update
  region is entered with the messages summed at their destinations (of the first 800000 rows the first region left)
  and the two halves of the update weights; and the result buffer ends at what the node-update region's write-backs
  leave.
-/
import proofs.«149764_j29669634081214_1_alg».proof.Proof.KiKeep
import proofs.«149764_j29669634081214_1_alg».proof.Proof.KiStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## The edge-message region's entry -/

variable [Cert.KernelIdeal.Facts]

/-- Running a list of host operations and then another is running the two lists one after the other. -/
theorem after_append (l₁ l₂ : List (HloOp τ sig (Elt F))) (X : Valuation τ sig (Elt F)) :
    StableHlo.after (l₁ ++ l₂) X = StableHlo.after l₂ (StableHlo.after l₁ X) := by
  induction l₁ generalizing X with
  | nil => rfl
  | cons op ops ih => simp only [List.cons_append, StableHlo.after_cons, ih]

/-- The source and destination indices after the first host stretch. -/
theorem W1_main_v1 (c : Dev nD) : W1 m ρ c (Proc.devRef .tc main_v1) = srcIdx (m ((c : Thread nD τ).loc main_arg1)) := by
  show StableHlo.after hostOps0 (W0 m ρ c) (Proc.devRef .tc main_v1) = _
  after_results
  rfl

set_option maxHeartbeats 4000000 in
/-- The four pieces an edge's features are made of, after the first host stretch: the source's state, -/
theorem W1_main_v25 (c : Dev nD) : W1 m ρ c (Proc.devRef .tc main_v25)
    = Host.gather gather_S50000x128_S800000x1_S800000x128_1_0_n_n_0_1_1128 (m ((c : Thread nD τ).loc main_arg0)) (rowIdx (srcIdx (m ((c : Thread nD τ).loc main_arg1)))) := by
  show StableHlo.after hostOps0 (W0 m ρ c) (Proc.devRef .tc main_v25) = _
  after_results_simp
  rfl

set_option maxHeartbeats 4000000 in
/-- the destination's state, -/
theorem W1_main_v32 (c : Dev nD) : W1 m ρ c (Proc.devRef .tc main_v32)
    = Host.gather gather_S50000x128_S800000x1_S800000x128_1_0_n_n_0_1_1128 (m ((c : Thread nD τ).loc main_arg0)) (rowIdx (dstIdx (m ((c : Thread nD τ).loc main_arg1)))) := by
  show StableHlo.after hostOps0 (W0 m ρ c) (Proc.devRef .tc main_v32) = _
  after_results_simp
  rfl

/-- the edge's own features (an argument), -/
theorem W1_main_arg2 (c : Dev nD) : W1 m ρ c (Proc.devRef .tc main_arg2) = m ((c : Thread nD τ).loc main_arg2) :=
  (W1_of m ρ c main_arg2 (by decide)).trans rfl

set_option maxHeartbeats 4000000 in
/-- and the difference of the two ends' coordinates. -/
theorem W1_main_v18 (c : Dev nD) : W1 m ρ c (Proc.devRef .tc main_v18)
    = subf (Host.gather gather_S50000x3_S800000x1_S800000x3_1_0_n_n_0_1_13 (m ((c : Thread nD τ).loc main_arg3)) (rowIdx (dstIdx (m ((c : Thread nD τ).loc main_arg1)))))
        (Host.gather gather_S50000x3_S800000x1_S800000x3_1_0_n_n_0_1_13 (m ((c : Thread nD τ).loc main_arg3)) (rowIdx (srcIdx (m ((c : Thread nD τ).loc main_arg1))))) := by
  show StableHlo.after hostOps0 (W0 m ρ c) (Proc.devRef .tc main_v18) = _
  after_results_simp
  rfl

/-- The edge features after the first host stretch: the four pieces side by side. The stretch is its first 41
    operations, then the concatenation and one more constant; neither of the last two writes one of the four pieces,
    so the concatenation reads them at their final contents. -/
theorem W1_main_v33 (c : Dev nD) : W1 m ρ c (Proc.devRef .tc main_v33) = msgIn (m ((c : Thread nD τ).loc main_arg0)) (m ((c : Thread nD τ).loc main_arg1)) (m ((c : Thread nD τ).loc main_arg2)) (m ((c : Thread nD τ).loc main_arg3)) := by
  obtain ⟨X, hX⟩ : ∃ X, X = StableHlo.after ((hostOps0 (F := F)).take 41) (W0 m ρ c) := ⟨_, rfl⟩
  have hW1 : W1 m ρ c = StableHlo.after
      [ StableHlo.nary ![main_v25, main_v32, main_arg2, main_v18] main_v33 (fun u => concatenate S800000x291 1 [⟨S800000x128, u 0⟩, ⟨S800000x128, u 1⟩, ⟨S800000x32, u 2⟩, ⟨S800000x3, u 3⟩] concatenates_S800000x128_S800000x128_S800000x32_S800000x3_S800000x291_d1),
        StableHlo.nullary main_c_7 (constantI S_ 32 0#32) ] X := by
    rw [hX]
    show StableHlo.after hostOps0 (W0 m ρ c) = StableHlo.after ((hostOps0 (F := F)).drop 41) _
    rw [← after_append, List.take_append_drop]
  have hkeep : ∀ r : Ref sig .tc, r ≠ main_v33 → r ≠ main_c_7 → X (Proc.devRef .tc r) = W1 m ρ c (Proc.devRef .tc r) := by
    intro r h1 h2
    rw [hW1]
    simp only [after_cons, after_nil]
    rw [nullary_result_ne _ _ _ _ h2, nary_result_ne _ _ _ _ _ _ h1]
  rw [hW1]
  simp only [after_cons, after_nil]
  rw [nullary_result_ne]; rotate_left; decide
  rw [nary_result]
  show concatenate S800000x291 1 [⟨S800000x128, X (Proc.devRef .tc main_v25)⟩, ⟨S800000x128, X (Proc.devRef .tc main_v32)⟩,
    ⟨S800000x32, X (Proc.devRef .tc main_arg2)⟩, ⟨S800000x3, X (Proc.devRef .tc main_v18)⟩] _ = _
  rw [hkeep main_v25 (by decide) (by decide), hkeep main_v32 (by decide) (by decide), hkeep main_arg2 (by decide) (by decide),
    hkeep main_v18 (by decide) (by decide), W1_main_v25, W1_main_v32, W1_main_arg2, W1_main_v18]
  rfl

/-- The destination indices after the first host stretch. -/
theorem W1_main_v3 (c : Dev nD) : W1 m ρ c (Proc.devRef .tc main_v3) = dstIdx (m ((c : Thread nD τ).loc main_arg1)) := by
  show StableHlo.after hostOps0 (W0 m ρ c) (Proc.devRef .tc main_v3) = _
  after_results
  rfl

/-- The first window's array at the edge-message region's entry: the padded edge features. -/
theorem W2_main_v34 (c : Dev nD) : W2 m ρ c (Proc.devRef .tc main_v34)
    = padded (msgIn (m ((c : Thread nD τ).loc main_arg0)) (m ((c : Thread nD τ).loc main_arg1)) (m ((c : Thread nD τ).loc main_arg2)) (m ((c : Thread nD τ).loc main_arg3))) := by
  obtain ⟨X, hX⟩ : ∃ X, X = W1 m ρ c := ⟨_, rfl⟩
  show StableHlo.after hostOps0_1 (W1 m ρ c) (Proc.devRef .tc main_v34) = _
  rw [← hX]
  after_results
  rw [hX, W1_main_v33]
  rfl

theorem W2_main_v3 (c : Dev nD) : W2 m ρ c (Proc.devRef .tc main_v3) = dstIdx (m ((c : Thread nD τ).loc main_arg1)) :=
  (W2_of m ρ c main_v3 (by decide)).trans (W1_main_v3 m ρ c)

theorem W2_main_arg4 (c : Dev nD) : W2 m ρ c (Proc.devRef .tc main_arg4) = m ((c : Thread nD τ).loc main_arg4) := W2_keep m ρ c main_arg4 (by decide) (by decide)
theorem W2_main_arg5 (c : Dev nD) : W2 m ρ c (Proc.devRef .tc main_arg5) = m ((c : Thread nD τ).loc main_arg5) := W2_keep m ρ c main_arg5 (by decide) (by decide)
theorem W2_main_arg6 (c : Dev nD) : W2 m ρ c (Proc.devRef .tc main_arg6) = m ((c : Thread nD τ).loc main_arg6) := W2_keep m ρ c main_arg6 (by decide) (by decide)
theorem W2_main_arg7 (c : Dev nD) : W2 m ρ c (Proc.devRef .tc main_arg7) = m ((c : Thread nD τ).loc main_arg7) := W2_keep m ρ c main_arg7 (by decide) (by decide)

/-! ## Between the regions -/

/-- What the edge-message region leaves in its output array. -/
theorem W3_main_v35 (c : Dev nD) : W3 m ρ c (Proc.devRef .tc main_v35) = (dat0 (V2 m ρ) c).arrAt 5 cfg0.N := W3_arr m ρ c 5

theorem W3_main_v3 (c : Dev nD) : W3 m ρ c (Proc.devRef .tc main_v3) = dstIdx (m ((c : Thread nD τ).loc main_arg1)) :=
  (W3_of_ne m ρ c main_v3 (by decide)).trans (W2_main_v3 m ρ c)

/-- The aggregated messages at the node-update region's entry. -/
theorem W4_main_v39 (c : Dev nD) : W4 m ρ c (Proc.devRef .tc main_v39)
    = aggr (dstIdx (m ((c : Thread nD τ).loc main_arg1))) (sliced ((dat0 (V2 m ρ) c).arrAt 5 cfg0.N)) := by
  show StableHlo.after hostOps1 (W3 m ρ c) (Proc.devRef .tc main_v39) = _
  after_results
  rw [W3_main_v35, W3_main_v3]
  rfl

/-- The two halves of the update weights at the node-update region's entry. -/
theorem W4_main_v40 (c : Dev nD) : W4 m ρ c (Proc.devRef .tc main_v40) = wx (m ((c : Thread nD τ).loc main_arg8)) := by
  show StableHlo.after hostOps1 (W3 m ρ c) (Proc.devRef .tc main_v40) = _
  after_results
  rw [show W3 m ρ c (Proc.devRef .tc main_arg8) = m ((c : Thread nD τ).loc main_arg8) from
    (W3_of_ne m ρ c main_arg8 (by decide)).trans (W2_keep m ρ c main_arg8 (by decide) (by decide))]
  rfl
theorem W4_main_v41 (c : Dev nD) : W4 m ρ c (Proc.devRef .tc main_v41) = wa (m ((c : Thread nD τ).loc main_arg8)) := by
  show StableHlo.after hostOps1 (W3 m ρ c) (Proc.devRef .tc main_v41) = _
  after_results
  rw [show W3 m ρ c (Proc.devRef .tc main_arg8) = m ((c : Thread nD τ).loc main_arg8) from
    (W3_of_ne m ρ c main_arg8 (by decide)).trans (W2_keep m ρ c main_arg8 (by decide) (by decide))]
  rfl

/-! ## The end -/

/-- What the node-update region leaves in the result buffer. -/
theorem W5_main_v42 (c : Dev nD) : W5 m ρ c (Proc.devRef .tc main_v42) = (dat1 (V4 m ρ) c).arrAt 9 cfg1.N := W5_arr m ρ c 9

end Cert.KernelIdeal.Hand

end
-- ==== Proof.Spec.lean ====
/-
  The mathematics both programs compute, one row at a time, over the extended reals.

  An edge's message is a two-layer perceptron of its 291 input features: `relu (u · W1 + b1) · W2 + b2`. A node's new
  state is the layer norm of `x + (relu (x · Wx + a · Wa + b1) · W2 + b2)`, where `a` is the node's aggregated messages
  and `Wx`, `Wa` are the two halves of the update layer's first weight matrix; the mean and the variance are sums over
  the 128 features divided by the constant `c128`, and `eps` is the stabiliser under the reciprocal square root. The
  constants stay parameters: both programs spell them with the same words.
-/
import Idealize.ShloMosaic.PureOps.Ideal
import Idealize.ShloMosaic.Lib.ValueIdx

noncomputable section

namespace Cert.Spec

open Idealize.ShloMosaic

/-- One hidden unit of a perceptron layer with `n` inputs: `max (Σ i, u i · W i k + b k) 0`. -/
def hidden {n : Nat} (u : Fin n → EReal) (W : Fin n → Fin 128 → EReal) (b : Fin 128 → EReal) (k : Fin 128) : EReal :=
  max ((∑ i : Fin n, u i * W i k) + b k) 0

/-- The second layer over hidden units `h`: `Σ k, h k · W2 k j + b2 j`. -/
def outLayer (h : Fin 128 → EReal) (W2 : Fin 128 → Fin 128 → EReal) (b2 : Fin 128 → EReal) (j : Fin 128) : EReal :=
  (∑ k : Fin 128, h k * W2 k j) + b2 j

/-- An edge's message from its 291 input features. -/
def mlpRow (u : Fin 291 → EReal) (W1 : Fin 291 → Fin 128 → EReal) (b1 : Fin 128 → EReal)
    (W2 : Fin 128 → Fin 128 → EReal) (b2 : Fin 128 → EReal) (j : Fin 128) : EReal :=
  outLayer (hidden u W1 b1) W2 b2 j

/-- One hidden unit of the update layer, the first weight matrix given as its two halves. -/
def updHidden (x a : Fin 128 → EReal) (Wx Wa : Fin 128 → Fin 128 → EReal) (b1 : Fin 128 → EReal) (k : Fin 128) : EReal :=
  max (((∑ i : Fin 128, x i * Wx i k) + (∑ i : Fin 128, a i * Wa i k)) + b1 k) 0

/-- The residual sum `x + update(x, a)` of one node, before the layer norm. -/
def updPre (x a : Fin 128 → EReal) (Wx Wa : Fin 128 → Fin 128 → EReal) (b1 : Fin 128 → EReal)
    (W2 : Fin 128 → Fin 128 → EReal) (b2 : Fin 128 → EReal) (j : Fin 128) : EReal :=
  x j + outLayer (updHidden x a Wx Wa b1) W2 b2 j

/-- The mean of a row: the sum of its 128 entries over `c128`. -/
def rowMean (c128 : EReal) (y : Fin 128 → EReal) : EReal := Ideal.div (∑ k : Fin 128, y k) c128

/-- The variance of a row about its mean. -/
def rowVar (c128 : EReal) (y : Fin 128 → EReal) : EReal :=
  Ideal.div (∑ k : Fin 128, (y k - rowMean c128 y) * (y k - rowMean c128 y)) c128

/-- The layer norm of a row with scale `g` and shift `bt`. -/
def lnRow (c128 eps : EReal) (y g bt : Fin 128 → EReal) (j : Fin 128) : EReal :=
  ((y j - rowMean c128 y) * Ideal.rsqrt (rowVar c128 y + eps)) * g j + bt j

/-- A node's new state. -/
def updRow (c128 eps : EReal) (x a : Fin 128 → EReal) (Wx Wa : Fin 128 → Fin 128 → EReal) (b1 : Fin 128 → EReal)
    (W2 : Fin 128 → Fin 128 → EReal) (b2 g bt : Fin 128 → EReal) (j : Fin 128) : EReal :=
  lnRow c128 eps (updPre x a Wx Wa b1 W2 b2) g bt j

/-- The messages of `n` edges as one array: row `e` is the perceptron of row `e` of the input features. -/
def mlpArr (n : Nat) (a : (⟨2, ![n, 291]⟩ : Shape).Idx → EReal) (W1 : (⟨2, ![291, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![n, 128]⟩ : Shape).Idx → EReal :=
  fun i => mlpRow (fun k => a (ValueIdx.ix2 (i 0) k)) (fun p q => W1 (ValueIdx.ix2 p q)) (fun q => b1 (ValueIdx.ix1 q))
    (fun p q => W2 (ValueIdx.ix2 p q)) (fun q => b2 (ValueIdx.ix1 q)) (i 1)

/-- The new states of `n` nodes as one array: row `r` is `updRow` of row `r` of the states and of the aggregated
    messages; the two halves of the first weight matrix are given entry by entry. -/
def updArr (n : Nat) (c128 eps : EReal) (x a : (⟨2, ![n, 128]⟩ : Shape).Idx → EReal)
    (Wx Wa : Fin 128 → Fin 128 → EReal) (b1 : (⟨1, ![128]⟩ : Shape).Idx → EReal)
    (W2 : (⟨2, ![128, 128]⟩ : Shape).Idx → EReal) (b2 g bt : (⟨1, ![128]⟩ : Shape).Idx → EReal) :
    (⟨2, ![n, 128]⟩ : Shape).Idx → EReal :=
  fun i => updRow c128 eps (fun k => x (ValueIdx.ix2 (i 0) k)) (fun k => a (ValueIdx.ix2 (i 0) k)) Wx Wa
    (fun q => b1 (ValueIdx.ix1 q)) (fun p q => W2 (ValueIdx.ix2 p q)) (fun q => b2 (ValueIdx.ix1 q))
    (fun q => g (ValueIdx.ix1 q)) (fun q => bt (ValueIdx.ix1 q)) (i 1)

/-- A sum over 256 indices is the sum over the first 128 plus the sum over the last 128. -/
theorem sum_256_split (f : Fin 256 → EReal) :
    (∑ k : Fin 256, f k) = (∑ k : Fin 128, f (Fin.castAdd 128 k)) + (∑ k : Fin 128, f (Fin.natAdd 128 k)) :=
  Fin.sum_univ_add (a := 128) (b := 128) f

end Cert.Spec

end
-- ==== Proof.KiVal0.lean ====
/-
  The edge perceptron region, read as values.

  The body of the first kernel computes, for a block of 2048 edges, `relu (u · W1 + b1) · W2 + b2` with two matrix
  products into a zero accumulator, the two biases broadcast along the rows, and the rectifier as a maximum with a
  zero splat. Over the extended reals the format changes are the identity, so entry `(p, q)` of the block is the
  perceptron of row `p` of the features at output unit `q`: `Cert.Spec.mlpRow` (first part).

  The region walks the 391 blocks of 2048 rows of the padded feature array; the weights and biases are whole arrays
  at every block. Block `t` of the output is therefore rows `2048 t … 2048 t + 2047` of the array of messages
  `Cert.Spec.mlpArr`, the blocks cover the 800768 rows (`391 · 2048 = 800768`), and the array the region leaves is
  that array of messages (second part).
-/
import proofs.«149764_j29669634081214_1_alg».proof.Proof.KiR0
import proofs.«149764_j29669634081214_1_alg».proof.Proof.Spec
import Idealize.ShloMosaic.Lib.Pipeline.Value
import Idealize.ShloMosaic.PureOps.Ideal.Laws
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

/-! ## The first product: 2048 × 291 times 291 × 128 -/

/-- The left operand's row coordinate is the output's row. -/
theorem lhs_first_0 (j : S2048x128.Idx) (k : dot_S2048x291_S291x128_S2048x128_1_0_0_1_n_n.contr.Idx) :
    (dot_S2048x291_S291x128_S2048x128_1_0_0_1_n_n.lhsIdx j k 0).val = (j 0).val := by
  simp [DotDims.lhsIdx, dot_S2048x291_S291x128_S2048x128_1_0_0_1_n_n]
  rfl

/-- The left operand's column coordinate is the contraction position. -/
theorem lhs_first_1 (j : S2048x128.Idx) (k : dot_S2048x291_S291x128_S2048x128_1_0_0_1_n_n.contr.Idx) :
    (dot_S2048x291_S291x128_S2048x128_1_0_0_1_n_n.lhsIdx j k 1).val = (k ⟨0, by decide⟩).val :=
  dot_S2048x291_S291x128_S2048x128_1_0_0_1_n_n.lhsIdx_val_of_single (cl := 1) rfl j k

/-- The right operand's row coordinate is the contraction position. -/
theorem rhs_first_0 (j : S2048x128.Idx) (k : dot_S2048x291_S291x128_S2048x128_1_0_0_1_n_n.contr.Idx) :
    (dot_S2048x291_S291x128_S2048x128_1_0_0_1_n_n.rhsIdx j k 0).val = (k ⟨0, by decide⟩).val :=
  dot_S2048x291_S291x128_S2048x128_1_0_0_1_n_n.rhsIdx_val_of_single (cr := 0) rfl j k

/-- The right operand's column coordinate is the output's column. -/
theorem rhs_first_1 (j : S2048x128.Idx) (k : dot_S2048x291_S291x128_S2048x128_1_0_0_1_n_n.contr.Idx) :
    (dot_S2048x291_S291x128_S2048x128_1_0_0_1_n_n.rhsIdx j k 1).val = (j 1).val := by
  simp [DotDims.rhsIdx, dot_S2048x291_S291x128_S2048x128_1_0_0_1_n_n]
  rfl

/-- The first product into the zero accumulator, at `(p, q)`: the sum over the 291 features. -/
theorem matmul_first_apply (a : FVec Ideal S2048x291 .bf16) (b : FVec Ideal S291x128 .bf16) (p : Fin 2048) (q : Fin 128) :
    matmul dot_S2048x291_S291x128_S2048x128_1_0_0_1_n_n none a b (constant (F := Ideal) S2048x128 .f32 0x00000000#32) (ix2 p q)
      = ∑ i : Fin 291, a (ix2 p i) * b (ix2 i q) := by
  simp only [matmul]
  rw [Ideal.matmul_constant_zero_apply,
    ← Equiv.sum_comp (contrEquiv1 dot_S2048x291_S291x128_S2048x128_1_0_0_1_n_n 291 rfl rfl).symm]
  refine Finset.sum_congr rfl fun i _ => ?_
  have hk := contrEquiv1_symm_val dot_S2048x291_S291x128_S2048x128_1_0_0_1_n_n 291 rfl rfl i
  congr 2
  · exact Shape.idx_ext₂ (lhs_first_0 _ _) ((lhs_first_1 _ _).trans hk)
  · exact Shape.idx_ext₂ ((rhs_first_0 _ _).trans hk) (rhs_first_1 _ _)

/-! ## The second product: 2048 × 128 times 128 × 128 -/

/-- The left operand's row coordinate is the output's row. -/
theorem lhs_second_0 (j : S2048x128.Idx) (k : dot_S2048x128_S128x128_S2048x128_1_0_0_1_n_n.contr.Idx) :
    (dot_S2048x128_S128x128_S2048x128_1_0_0_1_n_n.lhsIdx j k 0).val = (j 0).val := by
  simp [DotDims.lhsIdx, dot_S2048x128_S128x128_S2048x128_1_0_0_1_n_n]
  rfl

/-- The left operand's column coordinate is the contraction position. -/
theorem lhs_second_1 (j : S2048x128.Idx) (k : dot_S2048x128_S128x128_S2048x128_1_0_0_1_n_n.contr.Idx) :
    (dot_S2048x128_S128x128_S2048x128_1_0_0_1_n_n.lhsIdx j k 1).val = (k ⟨0, by decide⟩).val :=
  dot_S2048x128_S128x128_S2048x128_1_0_0_1_n_n.lhsIdx_val_of_single (cl := 1) rfl j k

/-- The right operand's row coordinate is the contraction position. -/
theorem rhs_second_0 (j : S2048x128.Idx) (k : dot_S2048x128_S128x128_S2048x128_1_0_0_1_n_n.contr.Idx) :
    (dot_S2048x128_S128x128_S2048x128_1_0_0_1_n_n.rhsIdx j k 0).val = (k ⟨0, by decide⟩).val :=
  dot_S2048x128_S128x128_S2048x128_1_0_0_1_n_n.rhsIdx_val_of_single (cr := 0) rfl j k

/-- The right operand's column coordinate is the output's column. -/
theorem rhs_second_1 (j : S2048x128.Idx) (k : dot_S2048x128_S128x128_S2048x128_1_0_0_1_n_n.contr.Idx) :
    (dot_S2048x128_S128x128_S2048x128_1_0_0_1_n_n.rhsIdx j k 1).val = (j 1).val := by
  simp [DotDims.rhsIdx, dot_S2048x128_S128x128_S2048x128_1_0_0_1_n_n]
  rfl

/-- The second product into the zero accumulator, at `(p, q)`: the sum over the 128 hidden units. -/
theorem matmul_second_apply (a : FVec Ideal S2048x128 .bf16) (b : FVec Ideal S128x128 .bf16) (p : Fin 2048) (q : Fin 128) :
    matmul dot_S2048x128_S128x128_S2048x128_1_0_0_1_n_n none a b (constant (F := Ideal) S2048x128 .f32 0x00000000#32) (ix2 p q)
      = ∑ k : Fin 128, a (ix2 p k) * b (ix2 k q) := by
  simp only [matmul]
  rw [Ideal.matmul_constant_zero_apply,
    ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  congr 2
  · exact Shape.idx_ext₂ (lhs_second_0 _ _) ((lhs_second_1 _ _).trans hk)
  · exact Shape.idx_ext₂ ((rhs_second_0 _ _).trans hk) (rhs_second_1 _ _)

/-! ## A bias along the rows -/

/-- A 128-vector cast to one row and broadcast over 2048 rows reads, at `(p, q)`, the vector at `q`. -/
theorem bias0_apply (b : Vec Ideal S128 .f32) (p : Fin 2048) (q : Fin 128) :
    broadcastTo S2048x128 (shapeCast S1x128 b shapeCasts_S128_S1x128) broadcasts_S1x128_S2048x128 (ix2 p q) = b (ix1 q) := by
  rw [broadcastTo_1b_ab_apply, shapeCast_a_1a_apply]

/-! ## The block's entry -/

/-- Entry `(p, q)` of the block the body stores is the perceptron of row `p` of the feature block at unit `q`. -/
theorem pay0_apply (x0 : Vec Ideal S2048x291 .f32) (x3 : Vec Ideal S291x128 .f32) (x6 : Vec Ideal S128 .f32)
    (x13 : Vec Ideal S128x128 .f32) (x16 : Vec Ideal S128 .f32) (p : Fin 2048) (q : Fin 128) :
    k0_pay1 (F := Ideal) x0 x3 x6 x13 x16 (ix2 p q)
      = Cert.Spec.mlpRow (fun k => x0 (ix2 p k)) (fun i k => x3 (ix2 i k)) (fun k => x6 (ix1 k))
          (fun k j => x13 (ix2 k j)) (fun j => x16 (ix1 j)) q := by
  unfold k0_pay1
  rw [addf_apply, matmul_second_apply, bias0_apply]
  unfold Cert.Spec.mlpRow Cert.Spec.outLayer Cert.Spec.hidden
  refine congrArg (· + x16 (ix1 q)) (Finset.sum_congr rfl fun k _ => ?_)
  rw [truncf_apply, truncf_apply, maximumf_apply, addf_apply, matmul_first_apply, bias0_apply, broadcast_apply]
  simp only [truncf_apply, shapeCast_self]
  show max _ (Ideal.ofBits .f32 0x00000000#32) * _ = _
  rw [Ideal.ofBits_zero_f32]

/-! ## From the blocks to the array -/

section ToArray

variable (V : (c : Dev nD) → (b : Ref sig .tc) → Buf (Elt Ideal) ((c : Thread nD τ).loc b))

theorem zeros2_0 : (![0, 0] : Fin 2 → Nat) = fun _ => 0 := funext fun a => by fin_cases a <;> rfl
theorem zeros1_0 : (![0] : Fin 1 → Nat) = fun _ => 0 := funext fun a => by fin_cases a <;> rfl

/-- The block indices over the 391 points: the feature and the message windows walk the row blocks in step; the two
    weight matrices and the two bias vectors stay at their one block. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- An entry of the body's block is the array of messages at the entry's place in the array, when the feature block's
    row `p` is the array's row `r` and the other four blocks are the whole weights and biases. -/
theorem pay0_eq_mlpArr (A : S800768x291.Idx → EReal) (W1 : S291x128.Idx → EReal) (b1 : S128.Idx → EReal)
    (W2 : S128x128.Idx → EReal) (b2 : S128.Idx → EReal)
    (x0 : Vec Ideal S2048x291 .f32) (x1 : Vec Ideal S291x128 .f32) (x2 : Vec Ideal S128 .f32)
    (x3 : Vec Ideal S128x128 .f32) (x4 : Vec Ideal S128 .f32) (p : Fin 2048) (q : Fin 128) (i : S800768x128.Idx)
    (h0 : ∀ k : Fin 291, x0 (ix2 p k) = A (ix2 (i 0) k)) (h1 : ∀ y, x1 y = W1 y) (h2 : ∀ y, x2 y = b1 y)
    (h3 : ∀ y, x3 y = W2 y) (h4 : ∀ y, x4 y = b2 y) (hq : i 1 = q) :
    k0_pay1 (F := Ideal) x0 x1 x2 x3 x4 (ix2 p q) = Cert.Spec.mlpArr 800768 A W1 b1 W2 b2 i := by
  rw [pay0_apply]
  unfold Cert.Spec.mlpArr
  simp only [h0, h1, h2, h3, h4, hq]

/-- WHAT POINT `t` WRITES BACK is block `t` of the array of messages of the padded features. -/
theorem flushed0_eq (c : Dev nD) (t : Fin cfg0.N) :
    (dat0 V c).flushed 5 t = ((cfg0.win 5).blk t).view.read (Elt Ideal)
      (Cert.Spec.mlpArr 800768 (V c main_v34) (V c main_arg4) (V c main_arg5) (V c main_arg6) (V c main_arg7)) := by
  show (cfg0.win 5).cut (grid0.coords t) ((dat0 V c).after 5 t) = _
  rw [after0_5]
  unfold out0_5
  rw [View.canon_unit_zero zeros2_0]
  simp only [View.ld_unit_zero (S := S2048x291) zeros2_0, View.ld_unit_zero (S := S291x128) zeros2_0,
    View.ld_unit_zero (S := S128) zeros1_0, View.ld_unit_zero (S := S128x128) zeros2_0]
  obtain ⟨e00, e01, e10, e11, e20, e30, e31, e40, e50, e51⟩ := block_indices0 t
  funext j
  obtain ⟨p, q, rfl⟩ : ∃ (p : Fin 2048) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Spec.mlpArr 800768 (V c main_v34) (V c main_arg4) (V c main_arg5) (V c main_arg6) (V c main_arg7)
        (((cfg0.win 5).blk t).view.emb (ix2 p q))
  refine pay0_eq_mlpArr _ _ _ _ _ _ _ _ _ _ p q _ (fun k => ?_) (fun y => ?_) (fun y => ?_) (fun y => ?_) (fun y => ?_) ?_
  · show V c main_v34 (((cfg0.win 0).blk t).view.emb (ix2 p k)) = V c main_v34 _
    refine congrArg (V c main_v34) (funext fun a => Fin.ext ?_)
    match a with
    | ⟨0, _⟩ =>
      show win0_0.index t (0 : Fin 2) * 2048 + 1 * p.val = win0_5.index t (0 : Fin 2) * 2048 + 1 * p.val
      rw [e00, e50]
    | ⟨1, _⟩ =>
      show win0_0.index t (1 : Fin 2) * 291 + 1 * k.val = k.val
      rw [e01]; omega
  · show V c main_arg4 (((cfg0.win 1).blk t).view.emb y) = V c main_arg4 y
    refine congrArg (V c main_arg4) (funext fun a => Fin.ext ?_)
    match a with
    | ⟨0, _⟩ => show win0_1.index t (0 : Fin 2) * 291 + 1 * (y 0).val = (y 0).val; rw [e10]; omega
    | ⟨1, _⟩ => show win0_1.index t (1 : Fin 2) * 128 + 1 * (y 1).val = (y 1).val; rw [e11]; omega
  · show V c main_arg5 (((cfg0.win 2).blk t).view.emb y) = V c main_arg5 y
    refine congrArg (V c main_arg5) (funext fun a => Fin.ext ?_)
    match a with
    | ⟨0, _⟩ => show win0_2.index t (0 : Fin 1) * 128 + 1 * (y 0).val = (y 0).val; rw [e20]; omega
  · show V c main_arg6 (((cfg0.win 3).blk t).view.emb y) = V c main_arg6 y
    refine congrArg (V c main_arg6) (funext fun a => Fin.ext ?_)
    match a with
    | ⟨0, _⟩ => show win0_3.index t (0 : Fin 2) * 128 + 1 * (y 0).val = (y 0).val; rw [e30]; omega
    | ⟨1, _⟩ => show win0_3.index t (1 : Fin 2) * 128 + 1 * (y 1).val = (y 1).val; rw [e31]; omega
  · show V c main_arg7 (((cfg0.win 4).blk t).view.emb y) = V c main_arg7 y
    refine congrArg (V c main_arg7) (funext fun a => Fin.ext ?_)
    match a with
    | ⟨0, _⟩ => show win0_4.index t (0 : Fin 1) * 128 + 1 * (y 0).val = (y 0).val; rw [e40]; omega
  · apply Fin.ext
    show win0_5.index t (1 : Fin 2) * 128 + 1 * q.val = q.val
    rw [e51]; omega

/-- An index of the array of messages is in point `t`'s block iff each coordinate is in the block's range. -/
theorem mem_block0 (t : Fin cfg0.N) (i : S800768x128.Idx) :
    i ∈ ((cfg0.win 5).blk t).view.set ↔ ∀ a : Fin 2, win0_5.index t a * S2048x128.size a ≤ (i a).val
      ∧ (i a).val < win0_5.index t a * S2048x128.size a + S2048x128.size a := by
  show i ∈ ((View.whole main_v35).slice (win0_5.rect t)).set ↔ _
  rw [View.set_slice_whole, Rect.mem_set_unit]
  exact Iff.rfl

/-- Row `r` of the padded array is in the block of point `r / 2048`: 391 blocks of 2048 rows are 800768 rows. -/
theorem covered0 (i : S800768x128.Idx) :
    ∃ t : Fin cfg0.N, (cfg0.win 5).flush t = true ∧ i ∈ ((cfg0.win 5).blk t).view.set := by
  have hi0 : (i 0).val < 800768 := (i 0).isLt
  have hi1 : (i 1).val < 128 := (i 1).isLt
  have hN : cfg0.N = 391 := N_0
  let t : Fin cfg0.N := ⟨(i 0).val / 2048, by rw [hN]; omega⟩
  obtain ⟨-, -, -, -, -, -, -, -, e50, e51⟩ := block_indices0 t
  have ht : t.val = (i 0).val / 2048 := rfl
  refine ⟨t, flush0_5 t, ?_⟩
  rw [mem_block0]
  intro a
  match a with
  | ⟨0, _⟩ =>
    show win0_5.index t (0 : Fin 2) * 2048 ≤ (i 0).val ∧ (i 0).val < win0_5.index t (0 : Fin 2) * 2048 + 2048
    rw [e50, ht]; omega
  | ⟨1, _⟩ =>
    show win0_5.index t (1 : Fin 2) * 128 ≤ (i 1).val ∧ (i 1).val < win0_5.index t (1 : Fin 2) * 128 + 128
    rw [e51]; omega

/-- THE ARRAY after the region: the messages of the padded features, row by row. -/
theorem final0 (c : Dev nD) :
    (dat0 V c).arrAt 5 cfg0.N
      = Cert.Spec.mlpArr 800768 (V c main_v34) (V c main_arg4) (V c main_arg5) (V c main_arg6) (V c main_arg7) :=
  (dat0 V c).arrAt_eq_of_cover 5 _ (fun t _ => flushed0_eq V c t) covered0

end ToArray

end Cert.KernelIdeal.Hand

end
-- ==== Proof.KiVal1.lean ====
/-
  The value of the node-update region at the ideal values.

  One block of the update kernel holds 5000 nodes. For a node `p` of the block the body computes, feature by feature,
  the residual row `y = x + (relu (x · Wx + a · Wa + b1) · W2 + b2)`, its mean `Σ y / c128`, the centred row `y - mean`,
  the variance `Σ (y - mean)² / c128`, and the layer norm `(y - mean) · rsqrt (var + eps) · g + bt`. Read at the index
  `(p, q)` the stored value is therefore the row function `Cert.Spec.updRow` of the node's rows of the two moving inputs
  and of the whole weight arrays.
-/
import proofs.«149764_j29669634081214_1_alg».proof.Proof.Gen.KernelIdeal.Skeleton
import proofs.«149764_j29669634081214_1_alg».proof.Proof.Spec
import proofs.«149764_j29669634081214_1_alg».proof.Proof.KiR1
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- The divisor of the mean and of the variance: the word both programs spell for the feature count. -/
abbrev c128 : EReal := Ideal.ofBits .f32 0x43000000#32
/-- The stabiliser under the reciprocal square root. -/
abbrev epsLN : EReal := Ideal.ofBits .f32 0x3727C5AC#32

/-! ## Layout operations of a column read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A feature vector cast to one row and broadcast over the block's rows reads, at `(p, q)`, the vector at `q`. -/
theorem rowBroadcast_apply (v : (⟨1, ![128]⟩ : Shape).Idx → α) (h : S128.ShapeCasts S1x128) (h' : S1x128.Broadcasts S5000x128)
    (p : Fin 5000) (q : Fin 128) : broadcastTo S5000x128 (shapeCast S1x128 v h) h' (ix2 p q) = v (ix1 q) := by
  rw [broadcastTo_1b_ab_apply, shapeCast_a_1a_apply]

end Layout

/-! ## The block's matrix product read at an index -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A `[5000, 128] × [128, 128]` product into the zero accumulator reads, at `(p, q)`, the sum over the 128 contracted
    positions of row `p` of the left operand times column `q` of the right. -/
theorem matmul_zero_apply {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## A lane sum read at a row -/

/-- The sum over the 128 lanes of a block reads, at row `p`, the sum of the row's entries. -/
theorem laneSum_apply (X : FVec Ideal S5000x128 .f32) (h : S5000x128.Reduces [1] S5000) (hφ : FKind.Formats .f32)
    (hacc : (0x00000000#32 : BitVec 32) = 0x00000000#32) (p : Fin 5000) :
    multiReduction .add [1] S5000 X 0x00000000#32 h hφ hacc (ix1 p) = ∑ k : Fin 128, X (ix2 p k) := by
  refine (Ideal.multiReduction_add_single X 0x00000000#32 h hφ hacc (ix1 p)).trans ?_
  refine Finset.sum_congr rfl fun k _ => congrArg X (funext fun a => Fin.ext ?_)
  match a with
  | ⟨0, _⟩ => rfl
  | ⟨1, _⟩ => rfl

/-! ## The body's payloads read at an index -/

section Payloads
variable (v0 v1 : Vec Ideal S5000x128 .f32) (v5 v8 : Vec Ideal S128x128 .f32) (v14 : Vec Ideal S128 .f32)
  (v21 : Vec Ideal S128x128 .f32) (v24 : Vec Ideal S128 .f32)

/-- The residual row `x + update(x, a)` of node `p` of a block, from the block's loaded values. -/
def preRow (p : Fin 5000) : Fin 128 → EReal :=
  Cert.Spec.updPre (fun k => v0 (ix2 p k)) (fun k => v1 (ix2 p k)) (fun i k => v5 (ix2 i k)) (fun i k => v8 (ix2 i k))
    (fun k => v14 (ix1 k)) (fun k j => v21 (ix2 k j)) (fun j => v24 (ix1 j))

/-- The centred row: at `(p, q)` the residual row's entry less the row's mean. -/
theorem pay2_apply (p : Fin 5000) (q : Fin 128) :
    k1_pay2 (F := Ideal) v0 v1 v5 v8 v14 v21 v24 (ix2 p q)
      = preRow v0 v1 v5 v8 v14 v21 v24 p q - Cert.Spec.rowMean c128 (preRow v0 v1 v5 v8 v14 v21 v24 p) := by
  unfold k1_pay2
  simp only [subf_apply, addf_apply, broadcastTo_a1_ab_apply, divf_apply, shapeCast_a_a1_apply, broadcast_apply,
    rowBroadcast_apply, matmul_zero_apply, truncf_apply, maximumf_apply, shapeCast_self]
  rw [laneSum_apply]
  simp only [addf_apply, rowBroadcast_apply, matmul_zero_apply, truncf_apply, maximumf_apply, broadcast_apply,
    Ideal.ofBits_def, Ideal.ofBits_zero_f32]
  rfl

/-- The sum of the centred row's squares, kept as a column: at `(p, 0)` the sum over the 128 features. -/
theorem pay3_apply (p : Fin 5000) (u : Fin 1) :
    k1_pay3 (F := Ideal) v0 v1 v5 v8 v14 v21 v24 (ix2 p u)
      = ∑ k : Fin 128, (preRow v0 v1 v5 v8 v14 v21 v24 p k - Cert.Spec.rowMean c128 (preRow v0 v1 v5 v8 v14 v21 v24 p))
          * (preRow v0 v1 v5 v8 v14 v21 v24 p k - Cert.Spec.rowMean c128 (preRow v0 v1 v5 v8 v14 v21 v24 p)) := by
  unfold k1_pay3
  simp only [shapeCast_a_a1_apply]
  rw [laneSum_apply]
  simp only [mulf_apply, pay2_apply]

/-- A reciprocal square root at an index is the extended reals' of the element. -/
theorem rsqrt_apply {s : Shape} {φ : FTy} (a : FVec Ideal s φ) (i : s.Idx) : rsqrt a i = Ideal.rsqrt (a i) := rfl

/-- The divisor column is the constant `c128`. -/
theorem pay4_apply (i : S5000x1.Idx) : k1_pay4 (F := Ideal) i = c128 := rfl

end Payloads

/-- The stored value at `(p, q)` of a block: the layer norm of the node's residual row. -/
theorem pay1_apply (v0 v1 : Vec Ideal S5000x128 .f32) (v5 v8 : Vec Ideal S128x128 .f32) (v14 : Vec Ideal S128 .f32)
    (v21 : Vec Ideal S128x128 .f32) (v24 v45 v49 : Vec Ideal S128 .f32) (p : Fin 5000) (q : Fin 128) :
    k1_pay1 (F := Ideal) (k1_pay2 v0 v1 v5 v8 v14 v21 v24) (k1_pay3 v0 v1 v5 v8 v14 v21 v24) (k1_pay4 (F := Ideal)) v45 v49 (ix2 p q)
      = Cert.Spec.updRow c128 epsLN (fun k => v0 (ix2 p k)) (fun k => v1 (ix2 p k)) (fun i k => v5 (ix2 i k))
          (fun i k => v8 (ix2 i k)) (fun k => v14 (ix1 k)) (fun k j => v21 (ix2 k j)) (fun j => v24 (ix1 j))
          (fun j => v45 (ix1 j)) (fun j => v49 (ix1 j)) q := by
  unfold k1_pay1
  simp only [addf_apply, mulf_apply, rowBroadcast_apply, broadcastTo_a1_ab_apply, divf_apply, broadcast_apply,
    rsqrt_apply, pay2_apply, pay3_apply, pay4_apply]
  rfl

/-! ## From blocks to the array

Step `t` of the ten writes back rows `5000 t … 5000 t + 4999` of the result; the two moving inputs show the same rows at
that step, and the seven weight and bias inputs are whole arrays at every step. So what step `t` writes back is block `t`
of one array, the row function of the inputs applied row by row, and the ten blocks tile the 50000 rows. -/

section Array

open Idealize.ShloMosaic.TcCoe
open Idealize.ShloMosaic.Pipeline (Dat Cfg Window)

-- the TensorCore's buffer contents when the region is entered, at the ideal values
variable (V : (c : Dev nD) → (b : Ref sig .tc) → Buf (Elt Ideal) ((c : Thread nD τ).loc b))

theorem zeroOff2 : (![0, 0] : Fin 2 → Nat) = fun _ => 0 := funext fun a => by fin_cases a <;> rfl
theorem zeroOff1 : (![0] : Fin 1 → Nat) = fun _ => 0 := funext fun a => by fin_cases a <;> rfl

/-- The printed index maps, decided over the ten steps: the result's block and the two moving inputs' blocks are block `t` of
    the rows and block 0 of the features; every other input's block is block 0 on each axis. -/
theorem blockIdx1 : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 1) = 0
    ∧ win1_8.index t (0 : Fin 1) = 0 :=
  (by decide +kernel : ∀ t : Fin grid1.N, _)

/-- An entry of the body's block is the array of new states at the entry's place `i` in the array, when row `p` of each of
    the two moving blocks is row `i 0` of its array and the other seven blocks are the whole weights, biases, scale and shift. -/
theorem pay1_eq_updArr (X A : S50000x128.Idx → EReal) (Wx Wa : S128x128.Idx → EReal) (b1 : S128.Idx → EReal)
    (W2 : S128x128.Idx → EReal) (b2 g bt : S128.Idx → EReal)
    (x0 x1 : Vec Ideal S5000x128 .f32) (x2 x3 : Vec Ideal S128x128 .f32) (x4 : Vec Ideal S128 .f32)
    (x5 : Vec Ideal S128x128 .f32) (x6 x7 x8 : Vec Ideal S128 .f32) (p : Fin 5000) (q : Fin 128) (i : S50000x128.Idx)
    (h0 : ∀ k : Fin 128, x0 (ix2 p k) = X (ix2 (i 0) k)) (h1 : ∀ k : Fin 128, x1 (ix2 p k) = A (ix2 (i 0) k))
    (h2 : ∀ y, x2 y = Wx y) (h3 : ∀ y, x3 y = Wa y) (h4 : ∀ y, x4 y = b1 y) (h5 : ∀ y, x5 y = W2 y)
    (h6 : ∀ y, x6 y = b2 y) (h7 : ∀ y, x7 y = g y) (h8 : ∀ y, x8 y = bt y) (hq : i 1 = q) :
    k1_pay1 (F := Ideal) (k1_pay2 x0 x1 x2 x3 x4 x5 x6) (k1_pay3 x0 x1 x2 x3 x4 x5 x6) (k1_pay4 (F := Ideal)) x7 x8 (ix2 p q)
      = Cert.Spec.updArr 50000 c128 epsLN X A (fun i k => Wx (ix2 i k)) (fun i k => Wa (ix2 i k)) b1 W2 b2 g bt i := by
  rw [pay1_apply]
  unfold Cert.Spec.updArr
  simp only [h0, h1, h2, h3, h4, h5, h6, h7, h8, hq]

/-- What step `t` writes back is block `t` of the array of new states. -/
theorem flushed1_eq (c : Dev nD) (t : Fin cfg1.N) :
    (dat1 V c).flushed 9 t = ((cfg1.win 9).blk t).view.read (Elt Ideal)
      (Cert.Spec.updArr 50000 c128 epsLN (V c main_arg0) (V c main_v39) (fun i k => V c main_v40 (ix2 i k))
        (fun i k => V c main_v41 (ix2 i k)) (V c main_arg9) (V c main_arg10) (V c main_arg11) (V c main_arg12) (V c main_arg13)) := by
  show (cfg1.win 9).cut (grid1.coords t) ((dat1 V c).after 9 t) = _
  rw [after1_9]
  unfold out1_9
  rw [View.canon_unit_zero zeroOff2]
  simp only [View.ld_unit_zero (S := S5000x128) zeroOff2, View.ld_unit_zero (S := S128x128) zeroOff2,
    View.ld_unit_zero (S := S128) zeroOff1]
  obtain ⟨h90, h91, h00, h01, h10, h11, h20, h21, h30, h31, h40, h50, h51, h60, h70, h80⟩ := blockIdx1 t
  funext j
  obtain ⟨p, q, rfl⟩ : ∃ (p : Fin 5000) (q : Fin 128), j = ix2 p q := ⟨j 0, j 1, eq_ix2 j⟩
  show k1_pay1 (F := Ideal)
      (k1_pay2 (iblk1 V c 0 t) (iblk1 V c 1 t) (iblk1 V c 2 t) (iblk1 V c 3 t) (iblk1 V c 4 t) (iblk1 V c 5 t) (iblk1 V c 6 t))
      (k1_pay3 (iblk1 V c 0 t) (iblk1 V c 1 t) (iblk1 V c 2 t) (iblk1 V c 3 t) (iblk1 V c 4 t) (iblk1 V c 5 t) (iblk1 V c 6 t))
      (k1_pay4 (F := Ideal)) (iblk1 V c 7 t) (iblk1 V c 8 t) (ix2 p q)
    = Cert.Spec.updArr 50000 c128 epsLN (V c main_arg0) (V c main_v39) (fun i k => V c main_v40 (ix2 i k))
        (fun i k => V c main_v41 (ix2 i k)) (V c main_arg9) (V c main_arg10) (V c main_arg11) (V c main_arg12) (V c main_arg13)
        (((cfg1.win 9).blk t).view.emb (ix2 p q))
  refine pay1_eq_updArr _ _ (V c main_v40) (V c main_v41) _ _ _ _ _ _ _ _ _ _ _ _ _ _ p q _ (fun k => ?_) (fun k => ?_)
    (fun y => ?_) (fun y => ?_) (fun y => ?_) (fun y => ?_) (fun y => ?_) (fun y => ?_) (fun y => ?_) ?_
  · show V c main_arg0 (((cfg1.win 0).blk t).view.emb (ix2 p k)) = V c main_arg0 _
    refine congrArg (V c main_arg0) (funext fun a => Fin.ext ?_)
    match a with
    | ⟨0, _⟩ =>
      show win1_0.index t (0 : Fin 2) * 5000 + 1 * p.val = win1_9.index t (0 : Fin 2) * 5000 + 1 * p.val
      rw [h00, h90]
    | ⟨1, _⟩ =>
      show win1_0.index t (1 : Fin 2) * 128 + 1 * k.val = k.val
      rw [h01]; omega
  · show V c main_v39 (((cfg1.win 1).blk t).view.emb (ix2 p k)) = V c main_v39 _
    refine congrArg (V c main_v39) (funext fun a => Fin.ext ?_)
    match a with
    | ⟨0, _⟩ =>
      show win1_1.index t (0 : Fin 2) * 5000 + 1 * p.val = win1_9.index t (0 : Fin 2) * 5000 + 1 * p.val
      rw [h10, h90]
    | ⟨1, _⟩ =>
      show win1_1.index t (1 : Fin 2) * 128 + 1 * k.val = k.val
      rw [h11]; omega
  · show V c main_v40 (((cfg1.win 2).blk t).view.emb y) = V c main_v40 y
    refine congrArg (V c main_v40) (funext fun a => Fin.ext ?_)
    match a with
    | ⟨0, _⟩ => show win1_2.index t (0 : Fin 2) * 128 + 1 * (y 0).val = (y 0).val; rw [h20]; omega
    | ⟨1, _⟩ => show win1_2.index t (1 : Fin 2) * 128 + 1 * (y 1).val = (y 1).val; rw [h21]; omega
  · show V c main_v41 (((cfg1.win 3).blk t).view.emb y) = V c main_v41 y
    refine congrArg (V c main_v41) (funext fun a => Fin.ext ?_)
    match a with
    | ⟨0, _⟩ => show win1_3.index t (0 : Fin 2) * 128 + 1 * (y 0).val = (y 0).val; rw [h30]; omega
    | ⟨1, _⟩ => show win1_3.index t (1 : Fin 2) * 128 + 1 * (y 1).val = (y 1).val; rw [h31]; omega
  · show V c main_arg9 (((cfg1.win 4).blk t).view.emb y) = V c main_arg9 y
    refine congrArg (V c main_arg9) (funext fun a => Fin.ext ?_)
    match a with
    | ⟨0, _⟩ => show win1_4.index t (0 : Fin 1) * 128 + 1 * (y 0).val = (y 0).val; rw [h40]; omega
  · show V c main_arg10 (((cfg1.win 5).blk t).view.emb y) = V c main_arg10 y
    refine congrArg (V c main_arg10) (funext fun a => Fin.ext ?_)
    match a with
    | ⟨0, _⟩ => show win1_5.index t (0 : Fin 2) * 128 + 1 * (y 0).val = (y 0).val; rw [h50]; omega
    | ⟨1, _⟩ => show win1_5.index t (1 : Fin 2) * 128 + 1 * (y 1).val = (y 1).val; rw [h51]; omega
  · show V c main_arg11 (((cfg1.win 6).blk t).view.emb y) = V c main_arg11 y
    refine congrArg (V c main_arg11) (funext fun a => Fin.ext ?_)
    match a with
    | ⟨0, _⟩ => show win1_6.index t (0 : Fin 1) * 128 + 1 * (y 0).val = (y 0).val; rw [h60]; omega
  · show V c main_arg12 (((cfg1.win 7).blk t).view.emb y) = V c main_arg12 y
    refine congrArg (V c main_arg12) (funext fun a => Fin.ext ?_)
    match a with
    | ⟨0, _⟩ => show win1_7.index t (0 : Fin 1) * 128 + 1 * (y 0).val = (y 0).val; rw [h70]; omega
  · show V c main_arg13 (((cfg1.win 8).blk t).view.emb y) = V c main_arg13 y
    refine congrArg (V c main_arg13) (funext fun a => Fin.ext ?_)
    match a with
    | ⟨0, _⟩ => show win1_8.index t (0 : Fin 1) * 128 + 1 * (y 0).val = (y 0).val; rw [h80]; omega
  · apply Fin.ext
    show win1_9.index t (1 : Fin 2) * 128 + 1 * q.val = q.val
    rw [h91]; omega

/-- An index of the array of new states is in step `t`'s block iff each coordinate is in the block's range. -/
theorem mem_block1 (t : Fin cfg1.N) (i : S50000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v42).slice (win1_9.rect t)).set ↔ _
  rw [View.set_slice_whole, Rect.mem_set_unit]
  exact Iff.rfl

/-- Row `r` is in the block of step `r / 5000`: ten blocks of 5000 rows are the 50000 rows. -/
theorem covered1 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨h90, h91, -⟩ := blockIdx1 t
  have ht : t.val = (i 0).val / 5000 := rfl
  refine ⟨t, flush1_9 t, ?_⟩
  rw [mem_block1]
  intro a
  match a with
  | ⟨0, _⟩ =>
    show win1_9.index t (0 : Fin 2) * 5000 ≤ (i 0).val ∧ (i 0).val < win1_9.index t (0 : Fin 2) * 5000 + 5000
    rw [h90, ht]; omega
  | ⟨1, _⟩ =>
    show win1_9.index t (1 : Fin 2) * 128 ≤ (i 1).val ∧ (i 1).val < win1_9.index t (1 : Fin 2) * 128 + 128
    rw [h91]; omega

/-- The array after the region: the new states of the 50000 nodes, row by row. -/
theorem final1 (c : Dev nD) :
    (dat1 V c).arrAt 9 cfg1.N
      = Cert.Spec.updArr 50000 c128 epsLN (V c main_arg0) (V c main_v39) (fun i k => V c main_v40 (ix2 i k))
          (fun i k => V c main_v41 (ix2 i k)) (V c main_arg9) (V c main_arg10) (V c main_arg11) (V c main_arg12) (V c main_arg13) :=
  (dat1 V c).arrAt_eq_of_cover 9 _ (fun t _ => flushed1_eq V c t) covered1

end Array

end Cert.KernelIdeal.Hand

end
-- ==== Proof.RefStages.lean ====
/-
  The reference's stages as pure functions of the argument arrays, one printed operation after another.

  `srcIdx` / `dstIdx` are the two rows of the edge list; `wrapIdx` adds the node count to a negative index (numpy's
  convention) and `rowIdx` lays the result out as the column a row gather takes. `msgIn` is an edge's 291 input
  features: the source's state, the destination's state, the edge's own features and the difference of the two
  ends' coordinates, side by side. `messages` is the two-layer perceptron of every row, `aggr` the sum of the
  messages that arrive at each node, and `out` the layer norm of the state plus the update perceptron of the state
  and the aggregated messages side by side.
-/
import proofs.«149764_j29669634081214_1_alg».proof.ReferenceIdeal

noncomputable section

namespace Cert.ReferenceIdeal.Hand

open Cert.ReferenceIdeal Idealize.ShloMosaic
open Cert.ReferenceIdeal.Facts₀ Cert.ReferenceIdeal.Facts

variable {F : FTy → Type} [FloatOps F] [Cert.ReferenceIdeal.Facts]

/-- The edges' source nodes: row 0 of the edge list. -/
def srcIdx (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edges' destination nodes: row 1 of the edge list. -/
def dstIdx (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A negative node index counts from the end: `i + 50000` where `i < 0`, else `i`. -/
def wrapIdx (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 50000#32))) i

/-- The wrapped indices as the one-column array a row gather starts from. -/
def rowIdx (i : (⟨S800000, .i32⟩ : BufTy).Contents (Elt F)) : (⟨S800000x1, .i32⟩ : BufTy).Contents (Elt F) :=
  broadcastInDim S800000x1 ![0] bcast_S800000_S800000x1_0 (wrapIdx i)

/-- Every edge's input features: `[x[src], x[dst], edge_attr, coords[dst] - coords[src]]`. -/
def msgIn (x : FVec F S50000x128 .f32) (ei : (⟨S2x800000, .i32⟩ : BufTy).Contents (Elt F)) (ea : FVec F S800000x32 .f32)
    (co : FVec F S50000x3 .f32) : FVec F S800000x291 .f32 :=
  concatenate S800000x291 1
    [⟨S800000x128, Host.gather gather_S50000x128_S800000x1_S800000x128_1_0_n_n_0_1_1128 x (rowIdx (srcIdx ei))⟩,
     ⟨S800000x128, Host.gather gather_S50000x128_S800000x1_S800000x128_1_0_n_n_0_1_1128 x (rowIdx (dstIdx ei))⟩,
     ⟨S800000x32, ea⟩,
     ⟨S800000x3, subf (Host.gather gather_S50000x3_S800000x1_S800000x3_1_0_n_n_0_1_13 co (rowIdx (dstIdx ei)))
        (Host.gather gather_S50000x3_S800000x1_S800000x3_1_0_n_n_0_1_13 co (rowIdx (srcIdx ei)))⟩]
    concatenates_S800000x128_S800000x128_S800000x32_S800000x3_S800000x291_d1

/-- Every edge's message: `relu (msg · W1 + b1) · W2 + b2`. -/
def messages (msg : FVec F S800000x291 .f32) (W1 : FVec F S291x128 .f32) (b1 : FVec F S128 .f32) (W2 : FVec F S128x128 .f32)
    (b2 : FVec F S128 .f32) : FVec F S800000x128 .f32 :=
  addf
    (Host.dotGeneral dot_S800000x128_S128x128_S800000x128_1_0_0_1_n_n none
      (maximumf
        (addf (Host.dotGeneral dot_S800000x291_S291x128_S800000x128_1_0_0_1_n_n none msg W1)
          (broadcastInDim S800000x128 ![0, 1] bcast_S1x128_S800000x128_0_1 (broadcastInDim S1x128 ![1] bcast_S128_S1x128_1 b1)))
        (broadcastInDim S800000x128 ![] bcast_S_S800000x128 (constant S_ .f32 0x00000000#32)))
      W2)
    (broadcastInDim S800000x128 ![0, 1] bcast_S1x128_S800000x128_0_1 (broadcastInDim S1x128 ![1] bcast_S128_S1x128_1 b2))

/-- The messages summed at their destination nodes. -/
def aggr (dst : (⟨S800000, .i32⟩ : BufTy).Contents (Elt F)) (msgs : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) msgs

/-- The residual sum `x + (relu ([x, a] · uW1 + ub1) · uW2 + ub2)`. -/
def preNorm (x a : FVec F S50000x128 .f32) (uW1 : FVec F S256x128 .f32) (ub1 : FVec F S128 .f32) (uW2 : FVec F S128x128 .f32)
    (ub2 : FVec F S128 .f32) : FVec F S50000x128 .f32 :=
  addf x
    (addf
      (Host.dotGeneral dot_S50000x128_S128x128_S50000x128_1_0_0_1_n_n none
        (maximumf
          (addf
            (Host.dotGeneral dot_S50000x256_S256x128_S50000x128_1_0_0_1_n_n none
              (concatenate S50000x256 1 [⟨S50000x128, x⟩, ⟨S50000x128, a⟩] concatenates_S50000x128_S50000x128_S50000x256_d1) uW1)
            (broadcastInDim S50000x128 ![0, 1] bcast_S1x128_S50000x128_0_1 (broadcastInDim S1x128 ![1] bcast_S128_S1x128_1 ub1)))
          (broadcastInDim S50000x128 ![] bcast_S_S50000x128 (constant S_ .f32 0x00000000#32)))
        uW2)
      (broadcastInDim S50000x128 ![0, 1] bcast_S1x128_S50000x128_0_1 (broadcastInDim S1x128 ![1] bcast_S128_S1x128_1 ub2)))

/-- The row means, as a column: the row sums over 128. -/
def meanCol (y : FVec F S50000x128 .f32) : FVec F S50000x1 .f32 :=
  Host.divf
    (broadcastInDim S50000x1 ![0] bcast_S50000_S50000x1_0 (Host.reduceAdd y (constant S_ .f32 0x00000000#32) reducesTo_S50000x128_S50000_d1 h_S_))
    (broadcastInDim S50000x1 ![] bcast_S_S50000x1 (constant S_ .f32 0x43000000#32))

/-- The variance's divisor `128 - ddof` with `ddof` the integer `0` converted to a float. -/
def varDivisor : FVec F S_ .f32 :=
  subf (constant S_ .f32 0x43000000#32) (sitofp .f32 (constantI S_ 32 0#32 : (⟨S_, .i32⟩ : BufTy).Contents (Elt F)))

/-- The row variances, as a column: jnp's `var` with `ddof` the integer `0`, which guards its divisor `128 - ddof`
    against not being positive. -/
def varCol (y : FVec F S50000x128 .f32) : FVec F S50000x1 .f32 :=
  select
    (broadcastInDim S50000x1 ![] bcast_S_S50000x1
      (cmpf .ogt (varDivisor (F := F)) (constant S_ .f32 0x00000000#32)))
    (Host.divf
      (broadcastInDim S50000x1 ![0] bcast_S50000_S50000x1_0
        (Host.reduceAdd
          (mulf (subf y (broadcastInDim S50000x128 ![0, 1] bcast_S50000x1_S50000x128_0_1 (meanCol y)))
            (subf y (broadcastInDim S50000x128 ![0, 1] bcast_S50000x1_S50000x128_0_1 (meanCol y))))
          (constant S_ .f32 0x00000000#32) reducesTo_S50000x128_S50000_d1 h_S_))
      (broadcastInDim S50000x1 ![] bcast_S_S50000x1 (varDivisor (F := F))))
    (broadcastInDim S50000x1 ![] bcast_S_S50000x1 (id (constant S_ .f32 0x7FC00000#32)))

/-- The layer norm of `y`, row by row, with scale `g` and shift `bt`. -/
def layerNorm (y : FVec F S50000x128 .f32) (g bt : FVec F S128 .f32) : FVec F S50000x128 .f32 :=
  addf
    (mulf
      (mulf (subf y (broadcastInDim S50000x128 ![0, 1] bcast_S50000x1_S50000x128_0_1 (meanCol y)))
        (broadcastInDim S50000x128 ![0, 1] bcast_S50000x1_S50000x128_0_1
          (Host.rsqrt (addf (varCol y) (broadcastInDim S50000x1 ![] bcast_S_S50000x1 (constant S_ .f32 0x3727C5AC#32))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 bt))

/-- The reference's result: the layer norm of the residual sum. -/
def out (x a : FVec F S50000x128 .f32) (uW1 : FVec F S256x128 .f32) (ub1 : FVec F S128 .f32) (uW2 : FVec F S128x128 .f32)
    (ub2 g bt : FVec F S128 .f32) : FVec F S50000x128 .f32 :=
  layerNorm (preNorm x a uW1 ub1 uW2 ub2) g bt

/-- The reference's result as one function of its fourteen arguments. -/
def result (x : FVec F S50000x128 .f32) (ei : (⟨S2x800000, .i32⟩ : BufTy).Contents (Elt F)) (ea : FVec F S800000x32 .f32)
    (co : FVec F S50000x3 .f32) (mW1 : FVec F S291x128 .f32) (mb1 : FVec F S128 .f32) (mW2 : FVec F S128x128 .f32)
    (mb2 : FVec F S128 .f32) (uW1 : FVec F S256x128 .f32) (ub1 : FVec F S128 .f32) (uW2 : FVec F S128x128 .f32)
    (ub2 g bt : FVec F S128 .f32) : FVec F S50000x128 .f32 :=
  out x (aggr (dstIdx ei) (messages (msgIn x ei ea co) mW1 mb1 mW2 mb2)) uW1 ub1 uW2 ub2 g bt

end Cert.ReferenceIdeal.Hand

end
-- ==== Proof.Bridge.lean ====
/-
  Where the two programs' host sides meet.

  The kernel program and the reference build the edge features, the destination indices and the sum at the
  destinations with the same operations, so those stages are the same functions. The kernel program differs in three
  places, each read here at an index: it pads the edge features with rows of zeros and discards the padded rows'
  messages again — every row's message depends on that row's features only, so the first 800000 rows of the padded
  messages are the messages of the unpadded features —, and it hands the update weights over in two halves, rows
  `0 … 127` and rows `128 … 255` of the one matrix the reference multiplies by.
-/
import proofs.«149764_j29669634081214_1_alg».proof.Proof.KiStages
import proofs.«149764_j29669634081214_1_alg».proof.Proof.RefStages
import proofs.«149764_j29669634081214_1_alg».proof.Proof.Spec
import Idealize.ShloMosaic.Lib.Pipeline.Value
import Idealize.ShloMosaic.Lib.KernelVsHost
import Idealize.ShloMosaic.Lib.ValueIdx

noncomputable section

namespace Cert.Proof.Bridge

open Idealize.ShloMosaic Idealize.ShloMosaic.ValueIdx

variable {F : FTy → Type} [FloatOps F] [Cert.KernelIdeal.Facts] [Cert.ReferenceIdeal.Facts]

/-! ## The shared host stages are the same functions -/

theorem msgIn_eq (x : FVec F Cert.KernelIdeal.S50000x128 .f32) (ei : (⟨Cert.KernelIdeal.S2x800000, .i32⟩ : BufTy).Contents (Elt F))
    (ea : FVec F Cert.KernelIdeal.S800000x32 .f32) (co : FVec F Cert.KernelIdeal.S50000x3 .f32) :
    Cert.KernelIdeal.Hand.msgIn x ei ea co = Cert.ReferenceIdeal.Hand.msgIn x ei ea co := rfl

theorem dstIdx_eq (ei : (⟨Cert.KernelIdeal.S2x800000, .i32⟩ : BufTy).Contents (Elt F)) :
    Cert.KernelIdeal.Hand.dstIdx ei = Cert.ReferenceIdeal.Hand.dstIdx ei := rfl

theorem aggr_eq (dst : (⟨Cert.KernelIdeal.S800000, .i32⟩ : BufTy).Contents (Elt F)) (msgs : FVec F Cert.KernelIdeal.S800000x128 .f32) :
    Cert.KernelIdeal.Hand.aggr dst msgs = Cert.ReferenceIdeal.Hand.aggr dst msgs := rfl

/-! ## The halves of the update weights, entry by entry -/

theorem wx_apply (uW1 : FVec F Cert.KernelIdeal.S256x128 .f32) (i k : Fin 128) :
    Cert.KernelIdeal.Hand.wx uW1 (ix2 i k) = uW1 (ix2 (Fin.castAdd 128 i) k) := by
  unfold Cert.KernelIdeal.Hand.wx
  refine extractStridedSlice_apply _ _ _ _ _ fun a => ?_
  match a with
  | ⟨0, _⟩ => exact (Nat.zero_add _).symm
  | ⟨1, _⟩ => exact (Nat.zero_add _).symm

theorem wa_apply (uW1 : FVec F Cert.KernelIdeal.S256x128 .f32) (i k : Fin 128) :
    Cert.KernelIdeal.Hand.wa uW1 (ix2 i k) = uW1 (ix2 (Fin.natAdd 128 i) k) := by
  unfold Cert.KernelIdeal.Hand.wa
  refine extractStridedSlice_apply _ _ _ _ _ fun a => ?_
  match a with
  | ⟨0, _⟩ => rfl
  | ⟨1, _⟩ => exact (Nat.zero_add _).symm

/-! ## Padding, then discarding the padded rows -/

/-- A row of the padded features below row 800000 is that row of the features. -/
theorem padded_apply (msg : FVec F Cert.KernelIdeal.S800000x291 .f32) (e : Fin 800000) (k : Fin 291) :
    Cert.KernelIdeal.Hand.padded msg (ix2 (Fin.castLE (by decide : 800000 ≤ 800768) e) k) = msg (ix2 e k) := by
  unfold Cert.KernelIdeal.Hand.padded
  refine pad_apply_of_inside _ _ _ _ _ _ _ _ _ fun a => ?_
  match a with
  | ⟨0, _⟩ => show e.val = 0 + e.val * (0 + 1); omega
  | ⟨1, _⟩ => show k.val = 0 + k.val * (0 + 1); omega

/-- The first 800000 rows of the messages of the padded features are the messages of the features. -/
theorem sliced_mlpArr_padded (msg : FVec Ideal Cert.KernelIdeal.S800000x291 .f32) (W1 : FVec Ideal Cert.KernelIdeal.S291x128 .f32)
    (b1 : FVec Ideal Cert.KernelIdeal.S128 .f32) (W2 : FVec Ideal Cert.KernelIdeal.S128x128 .f32) (b2 : FVec Ideal Cert.KernelIdeal.S128 .f32) :
    Cert.KernelIdeal.Hand.sliced (F := Ideal) (Cert.Spec.mlpArr 800768 (Cert.KernelIdeal.Hand.padded msg) W1 b1 W2 b2)
      = Cert.Spec.mlpArr 800000 msg W1 b1 W2 b2 := by
  funext j
  obtain ⟨e, q, rfl⟩ : ∃ (e : Fin 800000) (q : Fin 128), j = ix2 e q := ⟨j 0, j 1, eq_ix2 j⟩
  unfold Cert.KernelIdeal.Hand.sliced
  rw [extractStridedSlice_apply _ _ _ (ix2 e q) (ix2 (Fin.castLE (by decide : 800000 ≤ 800768) e) q) fun a => by
    match a with
    | ⟨0, _⟩ => exact (Nat.zero_add _).symm
    | ⟨1, _⟩ => exact (Nat.zero_add _).symm]
  show Cert.Spec.mlpRow (fun k => Cert.KernelIdeal.Hand.padded msg (ix2 (Fin.castLE _ e) k)) _ _ _ _ q
    = Cert.Spec.mlpRow (fun k => msg (ix2 e k)) _ _ _ _ q
  simp only [padded_apply]

end Cert.Proof.Bridge

end
-- ==== Proof.RefApply.lean ====
/-
  The reference's stages read at an index, over the extended reals: every stage of the reference is the array
  function the per-row mathematics names.

  A matrix product read at (r, c) is the sum over the contracted axis of the row's entries times the column's; a bias
  row broadcast down the rows reads the bias at the column; a row reduction reads the sum of the row; a column
  broadcast across the columns reads the column at the row. With these the edge perceptron is `mlpRow` of the edge's
  row, the residual sum is `updPre` of the node's rows (the 256-term product against the side-by-side rows splits into
  the state's half and the aggregated half), and the layer norm is `lnRow`.
-/
import proofs.«149764_j29669634081214_1_alg».proof.Proof.RefStages
import proofs.«149764_j29669634081214_1_alg».proof.Proof.Spec
import Idealize.ShloMosaic.PureOps.Ideal.Laws
import Idealize.ShloMosaic.Lib.ValueIdx
import Idealize.ShloMosaic.Lib.IdealHost
import Idealize.ShloMosaic.Lib.KernelVsHost
import Idealize.ShloMosaic.Lib.Pipeline.Value

noncomputable section

namespace Cert.ReferenceIdeal.Hand

open Cert.ReferenceIdeal Idealize.ShloMosaic Idealize.ShloMosaic.ValueIdx
open Cert.ReferenceIdeal.Facts₀ Cert.ReferenceIdeal.Facts

variable [Cert.ReferenceIdeal.Facts]

/-! ## A rows-by-columns matrix product at an index -/

/-- The dimension numbers of a plain product `[m, n] · [n, p]`: the left operand's axis 1 against the right's axis 0. -/
abbrev rowsCols (m n p : Nat)
    (wf : DotDims.WF ⟨2, ![m, n]⟩ ⟨2, ![n, p]⟩ ⟨2, ![m, p]⟩ [1] [0] [0] [1] [] []) :
    DotDims ⟨2, ![m, n]⟩ ⟨2, ![n, p]⟩ ⟨2, ![m, p]⟩ where
  lhsContracting := [1]
  rhsContracting := [0]
  lhsNonContracting := [0]
  rhsNonContracting := [1]
  lhsBatch := []
  rhsBatch := []
  wf := wf

section RowsCols
variable {m n p : Nat} (wf : DotDims.WF ⟨2, ![m, n]⟩ ⟨2, ![n, p]⟩ ⟨2, ![m, p]⟩ [1] [0] [0] [1] [] [])

/-- The left operand's row coordinate is the result's row. -/
theorem lhs_rowsCols_0 (i : (⟨2, ![m, p]⟩ : Shape).Idx) (q : (rowsCols m n p wf).contr.Idx) :
    ((rowsCols m n p wf).lhsIdx i q 0).val = (i 0).val := by
  unfold DotDims.lhsIdx
  rw [dif_neg (show ¬(0 : Fin (⟨2, ![m, n]⟩ : Shape).rank) ∈ (rowsCols m n p wf).lhsBatch from List.not_mem_nil),
    dif_pos (show (0 : Fin (⟨2, ![m, n]⟩ : Shape).rank) ∈ (rowsCols m n p wf).lhsNonContracting from List.mem_singleton.mpr rfl)]
  rfl

/-- The left operand's column coordinate is the contracted position. -/
theorem lhs_rowsCols_1 (i : (⟨2, ![m, p]⟩ : Shape).Idx) (q : (rowsCols m n p wf).contr.Idx) :
    ((rowsCols m n p wf).lhsIdx i q 1).val = (q ⟨0, Nat.zero_lt_one⟩).val :=
  (rowsCols m n p wf).lhsIdx_val_of_single rfl i q

/-- The right operand's row coordinate is the contracted position. -/
theorem rhs_rowsCols_0 (i : (⟨2, ![m, p]⟩ : Shape).Idx) (q : (rowsCols m n p wf).contr.Idx) :
    ((rowsCols m n p wf).rhsIdx i q 0).val = (q ⟨0, Nat.zero_lt_one⟩).val :=
  (rowsCols m n p wf).rhsIdx_val_of_single rfl i q

/-- The right operand's column coordinate is the result's column. -/
theorem rhs_rowsCols_1 (i : (⟨2, ![m, p]⟩ : Shape).Idx) (q : (rowsCols m n p wf).contr.Idx) :
    ((rowsCols m n p wf).rhsIdx i q 1).val = (i 1).val := by
  unfold DotDims.rhsIdx
  rw [dif_neg (show ¬(1 : Fin (⟨2, ![n, p]⟩ : Shape).rank) ∈ (rowsCols m n p wf).rhsBatch from List.not_mem_nil),
    dif_pos (show (1 : Fin (⟨2, ![n, p]⟩ : Shape).rank) ∈ (rowsCols m n p wf).rhsNonContracting from List.mem_singleton.mpr rfl)]
  rfl

/-- The product at (r, c): the sum over the contracted axis of the left operand's row `r` times the right operand's
    column `c`. -/
theorem rowsCols_apply (l : FVec Ideal ⟨2, ![m, n]⟩ .f32) (r : FVec Ideal ⟨2, ![n, p]⟩ .f32) (i : Fin m) (j : Fin p) :
    Host.dotGeneral (F := Ideal) (rowsCols m n p wf) none l r (ix2 i j) = ∑ k : Fin n, l (ix2 i k) * r (ix2 k j) := by
  simp only [Host.dotGeneral]
  rw [Ideal.dotGeneral_apply, ← Equiv.sum_comp (contrEquiv1 (rowsCols m n p wf) n rfl rfl).symm]
  refine Finset.sum_congr rfl fun k _ => ?_
  have hk := contrEquiv1_symm_val (rowsCols m n p wf) n rfl rfl k
  have el : (rowsCols m n p wf).lhsIdx (ix2 i j) ((contrEquiv1 (rowsCols m n p wf) n rfl rfl).symm k) = ix2 i k :=
    funext fun a => Fin.ext (by
      match a with
      | ⟨0, _⟩ => exact lhs_rowsCols_0 wf _ _
      | ⟨1, _⟩ => exact (lhs_rowsCols_1 wf _ _).trans hk)
  have er : (rowsCols m n p wf).rhsIdx (ix2 i j) ((contrEquiv1 (rowsCols m n p wf) n rfl rfl).symm k) = ix2 k j :=
    funext fun a => Fin.ext (by
      match a with
      | ⟨0, _⟩ => exact (rhs_rowsCols_0 wf _ _).trans hk
      | ⟨1, _⟩ => exact rhs_rowsCols_1 wf _ _)
  rw [el, er]

end RowsCols

/-! ## Broadcasts at an index -/

section Broadcasts
variable {α : Type}

/-- A bias vector laid out as one row and broadcast down `m` rows reads the bias at the column. -/
theorem biasRows_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (t : Fin n) :
    broadcastInDim ⟨2, ![m, n]⟩ ![0, 1] h2 (broadcastInDim ⟨2, ![1, n]⟩ ![1] h1 b) (ix2 r t) = b (ix1 t) := by
  rw [broadcastInDim_oneRow_apply]
  refine broadcastInDim_apply ![1] h1 b (ix2 (0 : Fin 1) t) (ix1 t) ?_
  intro a
  match a with
  | ⟨0, _⟩ =>
    show t.val = if n = 1 then 0 else t.val
    split_ifs with hn
    · have := t.isLt; omega
    · rfl

/-- A vector laid out as a column reads the vector at the row. -/
theorem asColumn_apply {m : Nat} (h : (⟨1, ![m]⟩ : Shape).BroadcastsInDim ⟨2, ![m, 1]⟩ ![0])
    (v : (⟨1, ![m]⟩ : Shape).Idx → α) (r : Fin m) (c : Fin 1) :
    broadcastInDim ⟨2, ![m, 1]⟩ ![0] h v (ix2 r c) = v (ix1 r) := by
  refine broadcastInDim_apply ![0] h v (ix2 r c) (ix1 r) ?_
  intro a
  match a with
  | ⟨0, _⟩ =>
    show r.val = if m = 1 then 0 else r.val
    split_ifs with hm
    · have := r.isLt; omega
    · rfl

/-- A column broadcast across `n` columns reads the column at the row. -/
theorem columnAcross_apply {m n : Nat} (h : (⟨2, ![m, 1]⟩ : Shape).BroadcastsInDim ⟨2, ![m, n]⟩ ![0, 1])
    (v : (⟨2, ![m, 1]⟩ : Shape).Idx → α) (r : Fin m) (t : Fin n) :
    broadcastInDim ⟨2, ![m, n]⟩ ![0, 1] h v (ix2 r t) = v (ix2 r (0 : Fin 1)) := by
  refine broadcastInDim_apply ![0, 1] h v (ix2 r t) (ix2 r (0 : Fin 1)) ?_
  intro a
  match a with
  | ⟨0, _⟩ =>
    show r.val = if m = 1 then 0 else r.val
    split_ifs with hm
    · have := r.isLt; omega
    · rfl
  | ⟨1, _⟩ =>
    show (0 : ℕ) = if (1 : ℕ) = 1 then 0 else t.val
    rw [if_pos rfl]

end Broadcasts

/-- The zero word broadcast to any shape reads the extended real zero. -/
theorem zeros_apply {T : Shape} (h : (⟨0, ![]⟩ : Shape).BroadcastsInDim T ![]) (j : T.Idx) :
    broadcastInDim T ![] h (constant (F := Ideal) S_ .f32 0x00000000#32) j = 0 := by
  rw [broadcastInDim_scalar_apply, constant_apply, Ideal.ofBits_zero_f32]

theorem ix2_zero {n0 n1 : Nat} (a : Fin n0) (b : Fin n1) : (ix2 a b) 0 = a := rfl
theorem ix2_one {n0 n1 : Nat} (a : Fin n0) (b : Fin n1) : (ix2 a b) 1 = b := rfl

/-! ## The edge perceptron -/

theorem messages_eq (msg : FVec Ideal S800000x291 .f32) (W1 : FVec Ideal S291x128 .f32) (b1 : FVec Ideal S128 .f32)
    (W2 : FVec Ideal S128x128 .f32) (b2 : FVec Ideal S128 .f32) :
    messages (F := Ideal) msg W1 b1 W2 b2 = Cert.Spec.mlpArr 800000 msg W1 b1 W2 b2 := by
  funext i
  obtain ⟨r, c, rfl⟩ : ∃ (r : Fin 800000) (c : Fin 128), i = ix2 r c := ⟨i 0, i 1, eq_ix2 i⟩
  unfold messages Cert.Spec.mlpArr Cert.Spec.mlpRow Cert.Spec.outLayer
  simp only [ix2_zero, ix2_one]
  rw [addf_apply, biasRows_apply,
    show dot_S800000x128_S128x128_S800000x128_1_0_0_1_n_n = rowsCols 800000 128 128 dot_S800000x128_S128x128_S800000x128_1_0_0_1_n_n_wf from rfl,
    rowsCols_apply]
  refine congrArg (· + b2 (ix1 c)) (Finset.sum_congr rfl fun k _ => ?_)
  rw [maximumf_apply, addf_apply, biasRows_apply, zeros_apply,
    show dot_S800000x291_S291x128_S800000x128_1_0_0_1_n_n = rowsCols 800000 291 128 dot_S800000x291_S291x128_S800000x128_1_0_0_1_n_n_wf from rfl,
    rowsCols_apply]
  rfl

/-! ## The update perceptron and the residual sum -/

/-- The two words the layer norm spells: the divisor `128` and the stabiliser under the reciprocal square root. -/
abbrev c128 : EReal := Ideal.ofBits .f32 0x43000000#32
abbrev epsLN : EReal := Ideal.ofBits .f32 0x3727C5AC#32

/-- The state and the aggregated messages side by side, read in the first 128 columns: the state. -/
theorem sideBySide_left (x a : FVec Ideal S50000x128 .f32) (r : Fin 50000) (k : Fin 128) :
    concatenate S50000x256 1 [⟨S50000x128, x⟩, ⟨S50000x128, a⟩] concatenates_S50000x128_S50000x128_S50000x256_d1
      (ix2 r (Fin.castAdd 128 k)) = x (ix2 r k) := by
  refine concatenate_pair_apply_left 1 x a _ (ix2 r (Fin.castAdd 128 k)) rfl (ix2 r k) ?_
  intro b
  match b with
  | ⟨0, _⟩ => rfl
  | ⟨1, _⟩ => rfl

/-- … and in the last 128 columns: the aggregated messages. -/
theorem sideBySide_right (x a : FVec Ideal S50000x128 .f32) (r : Fin 50000) (k : Fin 128) :
    concatenate S50000x256 1 [⟨S50000x128, x⟩, ⟨S50000x128, a⟩] concatenates_S50000x128_S50000x128_S50000x256_d1
      (ix2 r (Fin.natAdd 128 k)) = a (ix2 r k) := by
  refine concatenate_pair_apply_right 1 x a _ (ix2 r (Fin.natAdd 128 k)) rfl rfl (ix2 r k) ?_ ?_
  · intro b hb
    match b with
    | ⟨0, _⟩ => rfl
    | ⟨1, _⟩ => exact absurd rfl hb
  · show k.val + 128 = 128 + k.val
    exact Nat.add_comm _ _

/-- The residual sum at (r, c): the 256-term product against the side-by-side row is the state's half plus the
    aggregated half. -/
theorem preNorm_apply (x a : FVec Ideal S50000x128 .f32) (uW1 : FVec Ideal S256x128 .f32) (ub1 : FVec Ideal S128 .f32)
    (uW2 : FVec Ideal S128x128 .f32) (ub2 : FVec Ideal S128 .f32) (r : Fin 50000) (c : Fin 128) :
    preNorm (F := Ideal) x a uW1 ub1 uW2 ub2 (ix2 r c) =
      Cert.Spec.updPre (fun k => x (ix2 r k)) (fun k => a (ix2 r k)) (fun i k => uW1 (ix2 (Fin.castAdd 128 i) k))
        (fun i k => uW1 (ix2 (Fin.natAdd 128 i) k)) (fun q => ub1 (ix1 q)) (fun p q => uW2 (ix2 p q))
        (fun q => ub2 (ix1 q)) c := by
  unfold preNorm Cert.Spec.updPre Cert.Spec.outLayer Cert.Spec.updHidden
  rw [addf_apply, addf_apply, biasRows_apply,
    show dot_S50000x128_S128x128_S50000x128_1_0_0_1_n_n = rowsCols 50000 128 128 dot_S50000x128_S128x128_S50000x128_1_0_0_1_n_n_wf from rfl,
    rowsCols_apply]
  refine congrArg (x (ix2 r c) + ·) (congrArg (· + ub2 (ix1 c)) (Finset.sum_congr rfl fun k _ => ?_))
  rw [maximumf_apply, addf_apply, biasRows_apply, zeros_apply,
    show dot_S50000x256_S256x128_S50000x128_1_0_0_1_n_n = rowsCols 50000 256 128 dot_S50000x256_S256x128_S50000x128_1_0_0_1_n_n_wf from rfl,
    rowsCols_apply, Cert.Spec.sum_256_split]
  simp only [sideBySide_left, sideBySide_right]

/-! ## The layer norm -/

/-- A row's sum: the reduction over the columns from the zero word. -/
theorem rowSum_apply (y : FVec Ideal S50000x128 .f32) (r : Fin 50000) :
    Host.reduceAdd (F := Ideal) y (constant (F := Ideal) S_ .f32 0x00000000#32) reducesTo_S50000x128_S50000_d1 h_S_ (ix1 r)
      = ∑ k : Fin 128, y (ix2 r k) := by
  rw [hostReduceAdd_apply, Ideal.hostReduceAdd_single reducesTo_S50000x128_S50000_d1 (by decide), constant_apply,
    Ideal.ofBits_zero_f32, zero_add]
  refine Finset.sum_congr rfl fun k _ => ?_
  exact congrArg y (funext fun a => Fin.ext (by match a with | ⟨0, _⟩ => rfl | ⟨1, _⟩ => rfl))

/-- The mean column at a row is the row's mean. -/
theorem meanCol_apply (y : FVec Ideal S50000x128 .f32) (r : Fin 50000) (c : Fin 1) :
    meanCol (F := Ideal) y (ix2 r c) = Cert.Spec.rowMean c128 (fun k => y (ix2 r k)) := by
  unfold meanCol Cert.Spec.rowMean
  rw [hostDivf_apply, asColumn_apply, rowSum_apply, broadcastInDim_scalar_apply, constant_apply]

/-- The word `0x43000000` is the real number 128. -/
theorem c128_eq : c128 = ((128 : ℝ) : EReal) := by
  simp [c128, Ideal.ofBits, Ideal.ieee, -EReal.coe_mul]; norm_num

/-- The variance's divisor: `128` less the integer zero converted, which is `128`. -/
theorem varDivisor_apply (j : S_.Idx) : varDivisor (F := Ideal) j = c128 := by
  unfold varDivisor
  rw [subf_apply, constant_apply, sitofp_apply]
  show c128 - ((((0#32 : BitVec 32).toInt : ℤ) : ℝ) : EReal) = c128
  simp only [BitVec.toInt_zero, Int.cast_zero, EReal.coe_zero, sub_zero]

/-- The divisor is above zero, so the guard takes the quotient on every row. -/
theorem divisor_pos : Ideal.cmp .ogt c128 (0 : EReal) = 1#1 := by
  have h : (0 : EReal) < c128 := by
    rw [c128_eq]; exact_mod_cast (by norm_num : (0 : ℝ) < 128)
  show BitVec.ofBool (decide ((0 : EReal) < c128)) = 1#1
  rw [decide_eq_true h]; rfl

/-- The variance column at a row is the row's variance. -/
theorem varCol_apply (y : FVec Ideal S50000x128 .f32) (r : Fin 50000) (c : Fin 1) :
    varCol (F := Ideal) y (ix2 r c) = Cert.Spec.rowVar c128 (fun k => y (ix2 r k)) := by
  unfold varCol Cert.Spec.rowVar
  rw [select_apply, hostDivf_apply, broadcastInDim_scalar_apply, broadcastInDim_scalar_apply, broadcastInDim_scalar_apply,
    cmpf_apply, varDivisor_apply, constant_apply, Ideal.ofBits_zero_f32, Ideal.cmpf_def, divisor_pos, select_one,
    asColumn_apply, rowSum_apply]
  refine congrArg (Ideal.div · c128) (Finset.sum_congr rfl fun k _ => ?_)
  rw [mulf_apply, subf_apply, columnAcross_apply, meanCol_apply]

/-- The host's reciprocal square root at an index. -/
theorem hostRsqrt_apply {s : Shape} {φ : FTy} (v : FVec Ideal s φ) (i : s.Idx) : Host.rsqrt v i = Ideal.rsqrt (v i) := rfl

/-- The layer norm at (r, c) is the row's layer norm. -/
theorem layerNorm_apply (y : FVec Ideal S50000x128 .f32) (g bt : FVec Ideal S128 .f32) (r : Fin 50000) (c : Fin 128) :
    layerNorm (F := Ideal) y g bt (ix2 r c)
      = Cert.Spec.lnRow c128 epsLN (fun k => y (ix2 r k)) (fun q => g (ix1 q)) (fun q => bt (ix1 q)) c := by
  unfold layerNorm Cert.Spec.lnRow
  rw [addf_apply, mulf_apply, mulf_apply, subf_apply, biasRows_apply, biasRows_apply, columnAcross_apply,
    columnAcross_apply, meanCol_apply, hostRsqrt_apply, addf_apply, varCol_apply, broadcastInDim_scalar_apply,
    constant_apply]

/-! ## The reference's result -/

theorem out_eq (x a : FVec Ideal S50000x128 .f32) (uW1 : FVec Ideal S256x128 .f32) (ub1 : FVec Ideal S128 .f32)
    (uW2 : FVec Ideal S128x128 .f32) (ub2 g bt : FVec Ideal S128 .f32) :
    out (F := Ideal) x a uW1 ub1 uW2 ub2 g bt =
      Cert.Spec.updArr 50000 c128 epsLN x a (fun i k => uW1 (ix2 (Fin.castAdd 128 i) k))
        (fun i k => uW1 (ix2 (Fin.natAdd 128 i) k)) ub1 uW2 ub2 g bt := by
  funext i
  obtain ⟨r, c, rfl⟩ : ∃ (r : Fin 50000) (c : Fin 128), i = ix2 r c := ⟨i 0, i 1, eq_ix2 i⟩
  have hp : (fun k => preNorm (F := Ideal) x a uW1 ub1 uW2 ub2 (ix2 r k)) =
      Cert.Spec.updPre (fun k => x (ix2 r k)) (fun k => a (ix2 r k)) (fun i k => uW1 (ix2 (Fin.castAdd 128 i) k))
        (fun i k => uW1 (ix2 (Fin.natAdd 128 i) k)) (fun q => ub1 (ix1 q)) (fun p q => uW2 (ix2 p q))
        (fun q => ub2 (ix1 q)) := funext fun k => preNorm_apply x a uW1 ub1 uW2 ub2 r k
  unfold out Cert.Spec.updArr Cert.Spec.updRow
  simp only [ix2_zero, ix2_one]
  rw [layerNorm_apply, hp]

end Cert.ReferenceIdeal.Hand

end
-- ==== Proof.KiValue.lean ====
/-
  The idealized kernel program's result is the reference's function of the arguments.

  Over the extended reals the node-update region leaves, row by row, the layer norm of the residual sum of the node's
  state and its update, computed from the state, the aggregated messages and the two halves of the update weights;
  the aggregated messages are the sum at the destination nodes of the first 800000 rows the edge-message region left,
  which are the perceptron of the edge features' rows. The reference computes the same rows: its messages are the
  same perceptron of the same features, summed at the same destinations, and its update multiplies the state and the
  aggregate side by side by the whole weight matrix, which is the sum of the two halves' products.
-/
import proofs.«149764_j29669634081214_1_alg».proof.Proof.KiHost
import proofs.«149764_j29669634081214_1_alg».proof.Proof.KiVal0
import proofs.«149764_j29669634081214_1_alg».proof.Proof.KiVal1
import proofs.«149764_j29669634081214_1_alg».proof.Proof.Bridge
import proofs.«149764_j29669634081214_1_alg».proof.Proof.RefApply
import proofs.«149764_j29669634081214_1_alg».proof.Proof.Gen.ReferenceIdeal

set_option maxRecDepth 16384

noncomputable section

namespace Cert.Proof.Bridge

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- What the result buffer holds at the end, as the reference's function of the launch memory's arguments. -/
theorem kernel_result (c : Dev nD) :
    Cert.KernelIdeal.Hand.W5 m ρ c (Proc.devRef .tc main_v42)
      = Cert.ReferenceIdeal.Hand.result (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) := by
  rw [Cert.KernelIdeal.Hand.W5_main_v42, Cert.KernelIdeal.Hand.final1 (Cert.KernelIdeal.Hand.V4 m ρ) c]
  rw [show Cert.KernelIdeal.Hand.V4 m ρ c main_arg0 = _ from Cert.KernelIdeal.Hand.W4_main_arg0 m ρ c,
    show Cert.KernelIdeal.Hand.V4 m ρ c main_v39 = _ from Cert.KernelIdeal.Hand.W4_main_v39 m ρ c,
    show Cert.KernelIdeal.Hand.V4 m ρ c main_v40 = _ from Cert.KernelIdeal.Hand.W4_main_v40 m ρ c,
    show Cert.KernelIdeal.Hand.V4 m ρ c main_v41 = _ from Cert.KernelIdeal.Hand.W4_main_v41 m ρ c,
    show Cert.KernelIdeal.Hand.V4 m ρ c main_arg9 = _ from Cert.KernelIdeal.Hand.W4_main_arg9 m ρ c,
    show Cert.KernelIdeal.Hand.V4 m ρ c main_arg10 = _ from Cert.KernelIdeal.Hand.W4_main_arg10 m ρ c,
    show Cert.KernelIdeal.Hand.V4 m ρ c main_arg11 = _ from Cert.KernelIdeal.Hand.W4_main_arg11 m ρ c,
    show Cert.KernelIdeal.Hand.V4 m ρ c main_arg12 = _ from Cert.KernelIdeal.Hand.W4_main_arg12 m ρ c,
    show Cert.KernelIdeal.Hand.V4 m ρ c main_arg13 = _ from Cert.KernelIdeal.Hand.W4_main_arg13 m ρ c]
  rw [Cert.KernelIdeal.Hand.final0 (Cert.KernelIdeal.Hand.V2 m ρ) c]
  rw [show Cert.KernelIdeal.Hand.V2 m ρ c main_v34 = _ from Cert.KernelIdeal.Hand.W2_main_v34 m ρ c,
    show Cert.KernelIdeal.Hand.V2 m ρ c main_arg4 = _ from Cert.KernelIdeal.Hand.W2_main_arg4 m ρ c,
    show Cert.KernelIdeal.Hand.V2 m ρ c main_arg5 = _ from Cert.KernelIdeal.Hand.W2_main_arg5 m ρ c,
    show Cert.KernelIdeal.Hand.V2 m ρ c main_arg6 = _ from Cert.KernelIdeal.Hand.W2_main_arg6 m ρ c,
    show Cert.KernelIdeal.Hand.V2 m ρ c main_arg7 = _ from Cert.KernelIdeal.Hand.W2_main_arg7 m ρ c]
  rw [sliced_mlpArr_padded]
  unfold Cert.ReferenceIdeal.Hand.result
  rw [Cert.ReferenceIdeal.Hand.out_eq, Cert.ReferenceIdeal.Hand.messages_eq]
  rw [msgIn_eq, dstIdx_eq, aggr_eq]
  simp only [wx_apply, wa_apply]

end Cert.Proof.Bridge

end
-- ==== Proof.RefRun.lean ====
/-
  The reference's run. The reference is a straight line of host operations: the edge list's two rows, the
  wrapped indices and the row gathers they drive, the edge features laid side by side, the message perceptron, the
  sum of the messages at their destination nodes, the update perceptron over the state and the aggregate side by
  side, and the layer norm of the residual sum. The three functions it calls (the two rectifiers, and the variance
  with its guarded divisor) are listed at their call sites over the buffers of that call. Every weakly fair
  execution ends with the result buffer at `result` of the fourteen argument arrays, and the arguments unchanged.
-/
import proofs.«149764_j29669634081214_1_alg».proof.Proof.RefStages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The two rows of the edge list, the wrapped indices, and the four row gathers they drive (with the difference of the two ends' coordinates). -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v3 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v3 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg3 main_v9 main_v10 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.nullary main_c_1 (constantI S_ 32 0#32),
    StableHlo.unary main_c_1 main_v11 (broadcastInDim S800000 ![] bcast_S_S800000 : (⟨S_, .i32⟩ : BufTy).Contents (Elt F) → (⟨S800000, .i32⟩ : BufTy).Contents (Elt F)),
    StableHlo.binary main_v1 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_v1 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_arg3 main_v16 main_v17 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.binary main_v10 main_v17 main_v18 (subf : (⟨S800000x3, .f32⟩ : BufTy).Contents (Elt F) → (⟨S800000x3, .f32⟩ : BufTy).Contents (Elt F) → (⟨S800000x3, .f32⟩ : BufTy).Contents (Elt F)),
    StableHlo.nullary main_c_3 (constantI S_ 32 0#32),
    StableHlo.unary main_c_3 main_v19 (broadcastInDim S800000 ![] bcast_S_S800000 : (⟨S_, .i32⟩ : BufTy).Contents (Elt F) → (⟨S800000, .i32⟩ : BufTy).Contents (Elt F)),
    StableHlo.binary main_v1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v21 (broadcastInDim S800000 ![] bcast_S_S800000 : (⟨S_, .i32⟩ : BufTy).Contents (Elt F) → (⟨S800000, .i32⟩ : BufTy).Contents (Elt F)),
    StableHlo.binary main_v1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_arg0 main_v24 main_v25 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_5 (constantI S_ 32 0#32),
    StableHlo.unary main_c_5 main_v26 (broadcastInDim S800000 ![] bcast_S_S800000 : (⟨S_, .i32⟩ : BufTy).Contents (Elt F) → (⟨S800000, .i32⟩ : BufTy).Contents (Elt F)),
    StableHlo.binary main_v3 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v28 (broadcastInDim S800000 ![] bcast_S_S800000 : (⟨S_, .i32⟩ : BufTy).Contents (Elt F) → (⟨S800000, .i32⟩ : BufTy).Contents (Elt F)),
    StableHlo.binary main_v3 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_v3 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.binary main_arg0 main_v31 main_v32 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The buffers those operations write. -/
abbrev WA : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_c_3, main_v19, main_v20, main_c_4, main_v21, main_v22, main_v23, main_v24, main_v25, main_c_5, main_v26, main_v27, main_c_6, main_v28, main_v29, main_v30, main_v31, main_v32]

/-- The edge's 291 input features: the four pieces side by side. -/
abbrev opsB1 : List (HloOp τ sig (Elt F)) :=
  [ StableHlo.nary ![main_v25, main_v32, main_arg2, main_v18] main_v33 (fun u => concatenate S800000x291 1 [⟨S800000x128, u 0⟩, ⟨S800000x128, u 1⟩, ⟨S800000x32, u 2⟩, ⟨S800000x3, u 3⟩] concatenates_S800000x128_S800000x128_S800000x32_S800000x3_S800000x291_d1) ]

/-- The buffers those operations write. -/
abbrev WB1 : List (Ref sig .tc) := [main_v33]

/-- The message perceptron over every edge's features, and the messages summed at their destination nodes. -/
abbrev opsB : List (HloOp τ sig (Elt F)) :=
  [ StableHlo.binary main_v33 main_arg4 main_v34 ((fun l r => Host.dotGeneral dot_S800000x291_S291x128_S800000x128_1_0_0_1_n_n none l r) : (⟨S800000x291, .f32⟩ : BufTy).Contents (Elt F) → (⟨S291x128, .f32⟩ : BufTy).Contents (Elt F) → (⟨S800000x128, .f32⟩ : BufTy).Contents (Elt F)),
    StableHlo.unary main_arg5 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S800000x128 ![0, 1] bcast_S1x128_S800000x128_0_1 : (⟨S1x128, .f32⟩ : BufTy).Contents (Elt F) → (⟨S800000x128, .f32⟩ : BufTy).Contents (Elt F)),
    StableHlo.binary main_v34 main_v36 main_v37 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v37 : TRef sig ⟨S800000x128, .f32⟩) main_call0.v0 main_call0.v1 maximumf,
    StableHlo.binary main_v38 main_arg6 main_v39 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S800000x128 ![0, 1] bcast_S1x128_S800000x128_0_1 : (⟨S1x128, .f32⟩ : BufTy).Contents (Elt F) → (⟨S800000x128, .f32⟩ : BufTy).Contents (Elt F)),
    StableHlo.binary main_v39 main_v41 main_v42 (addf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v43 (broadcastInDim S50000x128 ![] bcast_S_S50000x128 : (⟨S_, .f32⟩ : BufTy).Contents (Elt F) → (⟨S50000x128, .f32⟩ : BufTy).Contents (Elt F)),
    StableHlo.unary main_v3 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The buffers those operations write. -/
abbrev WB : List (Ref sig .tc) := [main_v34, main_v35, main_v36, main_v37, main_call0.cst.ref, main_call0.v0.ref, main_call0.v1.ref, main_v39, main_v40, main_v41, main_v42, main_cst, main_v43, main_v44, main_v45]

/-- The update perceptron over the state and the aggregate side by side, and the residual sum. -/
abbrev opsC : List (HloOp τ sig (Elt F)) :=
  [ StableHlo.binary main_arg0 main_v45 main_v46 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v46 main_arg8 main_v47 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg9 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v49 main_v50 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v50 : TRef sig ⟨S50000x128, .f32⟩) main_call1.v0 main_call1.v1 maximumf,
    StableHlo.binary main_v51 main_arg10 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.binary main_arg0 main_v55 main_v56 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev WC : List (Ref sig .tc) := [main_v46, main_v47, main_v48, main_v49, main_v50, main_call1.cst.ref, main_call1.v0.ref, main_call1.v1.ref, main_v52, main_v53, main_v54, main_v55, main_v56]

/-- The layer norm of the residual sum: the row means, the guarded row variances, the scale and the shift. -/
abbrev opsD : List (HloOp τ sig (Elt F)) :=
  [ StableHlo.nullary main_cst_7 (constant S_ .f32 0x00000000#32),
    StableHlo.binary main_v56 main_cst_7 main_v57 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v57 main_v58 (broadcastInDim S50000x1 ![0] bcast_S50000_S50000x1_0 : (⟨S50000, .f32⟩ : BufTy).Contents (Elt F) → (⟨S50000x1, .f32⟩ : BufTy).Contents (Elt F)),
    StableHlo.nullary main_cst_8 (constant S_ .f32 0x43000000#32),
    StableHlo.unary main_cst_8 main_v59 (broadcastInDim S50000x1 ![] bcast_S_S50000x1 : (⟨S_, .f32⟩ : BufTy).Contents (Elt F) → (⟨S50000x1, .f32⟩ : BufTy).Contents (Elt F)),
    StableHlo.binary main_v58 main_v59 main_v60 (Host.divf : (⟨S50000x1, .f32⟩ : BufTy).Contents (Elt F) → (⟨S50000x1, .f32⟩ : BufTy).Contents (Elt F) → (⟨S50000x1, .f32⟩ : BufTy).Contents (Elt F)),
    StableHlo.nullary main_c_9 (constantI S_ 32 0#32),
    StableHlo.TRef.nullary main_call2.cst (constant S_ .f32 0x00000000#32),
    StableHlo.TRef.binary (.of main_v56 : TRef sig ⟨S50000x128, .f32⟩) main_call2.cst main_call2.v0 (fun x v => Host.reduceAdd x v reducesTo_S50000x128_S50000_d1 h_S_),
    StableHlo.TRef.unary main_call2.v0 main_call2.v1 (broadcastInDim S50000x1 ![0] bcast_S50000_S50000x1_0),
    StableHlo.TRef.nullary main_call2.cst_0 (constant S_ .f32 0x43000000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x128 ![0, 1] bcast_S50000x1_S50000x128_0_1),
    StableHlo.TRef.binary (.of main_v56 : TRef sig ⟨S50000x128, .f32⟩) main_call2.v4 main_call2.v5 subf,
    StableHlo.TRef.binary main_call2.v5 main_call2.v5 main_call2.v6 mulf,
    StableHlo.TRef.unary (.of main_c_9 : TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b),
    StableHlo.unary main_v60 main_v62 (broadcastInDim S50000x128 ![0, 1] bcast_S50000x1_S50000x128_0_1 : (⟨S50000x1, .f32⟩ : BufTy).Contents (Elt F) → (⟨S50000x128, .f32⟩ : BufTy).Contents (Elt F)),
    StableHlo.binary main_v56 main_v62 main_v63 (subf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3727C5AC#32),
    StableHlo.unary main_cst_10 main_v64 (broadcastInDim S50000x1 ![] bcast_S_S50000x1 : (⟨S_, .f32⟩ : BufTy).Contents (Elt F) → (⟨S50000x1, .f32⟩ : BufTy).Contents (Elt F)),
    StableHlo.binary main_v61 main_v64 main_v65 (addf : (⟨S50000x1, .f32⟩ : BufTy).Contents (Elt F) → (⟨S50000x1, .f32⟩ : BufTy).Contents (Elt F) → (⟨S50000x1, .f32⟩ : BufTy).Contents (Elt F)),
    StableHlo.unary main_v65 main_v66 (Host.rsqrt : (⟨S50000x1, .f32⟩ : BufTy).Contents (Elt F) → (⟨S50000x1, .f32⟩ : BufTy).Contents (Elt F)),
    StableHlo.unary main_v66 main_v67 (broadcastInDim S50000x128 ![0, 1] bcast_S50000x1_S50000x128_0_1 : (⟨S50000x1, .f32⟩ : BufTy).Contents (Elt F) → (⟨S50000x128, .f32⟩ : BufTy).Contents (Elt F)),
    StableHlo.binary main_v63 main_v67 main_v68 (mulf : (⟨S50000x128, .f32⟩ : BufTy).Contents (Elt F) → (⟨S50000x128, .f32⟩ : BufTy).Contents (Elt F) → (⟨S50000x128, .f32⟩ : BufTy).Contents (Elt F)),
    StableHlo.unary main_arg12 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_arg13 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (addf : (⟨S50000x128, .f32⟩ : BufTy).Contents (Elt F) → (⟨S50000x128, .f32⟩ : BufTy).Contents (Elt F) → (⟨S50000x128, .f32⟩ : BufTy).Contents (Elt F)) ]

/-- The buffers those operations write. -/
abbrev WD : List (Ref sig .tc) := [main_cst_7, main_v57, main_v58, main_cst_8, main_v59, main_v60, main_c_9, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.v12.ref, main_call2.cst_3.ref, main_call2.v13.ref, main_call2.cst_4.ref, main_call2.call0.v0.ref, main_call2.call0.v1.ref, main_call2.call0.v2.ref, main_v62, main_v63, main_cst_10, main_v64, main_v65, main_v66, main_v67, main_v68, main_v69, main_v70, main_v71, main_v72, main_v73, main_v74]

/-- The reference's 114 operations in order, each call's operations in its place. -/
abbrev ops : List (HloOp τ sig (Elt F)) := opsA ++ opsB1 ++ opsB ++ opsC ++ opsD

/-- Running a list of operations and then another is running the two lists one after the other. -/
theorem after_append (l₁ l₂ : List (HloOp τ sig (Elt F))) (X : Valuation τ sig (Elt F)) :
    after (l₁ ++ l₂) X = after l₂ (after l₁ X) := by
  induction l₁ generalizing X with
  | nil => rfl
  | cons op l ih => simp only [List.cons_append, after_cons, ih]

/-- What holds of every operation of two lists holds of every operation of the two in a row. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- One operation writes its result buffer only, and that buffer is in the stage's list. -/
local macro "writes_one" : tactic =>
  `(tactic| (simp only [nullary_writes, unary_writes, binary_writes, ternary_writes, reshape_writes, nary_writes,
      Finset.singleton_subset_iff, List.mem_toFinset]; exact List.mem_map_of_mem (by decide)))

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsA_fresh : (opsA : List (HloOp τ sig (Elt F))).Forall fun op => op.fresh = ∅ := by
  simp only [List.Forall]; repeat' constructor
theorem opsA_writes : (opsA : List (HloOp τ sig (Elt F))).Forall fun op => op.writes ⊆ (WA.map (Proc.devRef (τ := τ) .tc)).toFinset := by
  simp only [List.Forall]
  repeat' apply And.intro
  all_goals writes_one
/-- A buffer the stage does not write keeps its contents. -/
theorem keepA (X : Valuation τ sig (Elt F)) (r : Ref sig .tc) (h : r ∉ WA) : after opsA X (Proc.devRef .tc r) = X (Proc.devRef .tc r) :=
  after_of_writes_sub opsA X opsA_writes h

theorem opsB1_sub : (opsB1 : List (HloOp τ sig (Elt F))).Forall fun op => op.bufs ⊆ tcRefs τ sig :=
  nary_bufs_sub ..
theorem opsB1_fresh : (opsB1 : List (HloOp τ sig (Elt F))).Forall fun op => op.fresh = ∅ := by
  simp only [List.Forall]; repeat' constructor
theorem opsB1_writes : (opsB1 : List (HloOp τ sig (Elt F))).Forall fun op => op.writes ⊆ (WB1.map (Proc.devRef (τ := τ) .tc)).toFinset := by
  simp only [List.Forall]
  repeat' apply And.intro
  all_goals writes_one
/-- A buffer the stage does not write keeps its contents. -/
theorem keepB1 (X : Valuation τ sig (Elt F)) (r : Ref sig .tc) (h : r ∉ WB1) : after opsB1 X (Proc.devRef .tc r) = X (Proc.devRef .tc r) :=
  after_of_writes_sub opsB1 X opsB1_writes h

theorem opsB_sub : (opsB : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩
theorem opsB_fresh : (opsB : List (HloOp τ sig (Elt F))).Forall fun op => op.fresh = ∅ := by
  simp only [List.Forall]; repeat' constructor
theorem opsB_writes : (opsB : List (HloOp τ sig (Elt F))).Forall fun op => op.writes ⊆ (WB.map (Proc.devRef (τ := τ) .tc)).toFinset := by
  simp only [List.Forall]
  repeat' apply And.intro
  all_goals writes_one
/-- A buffer the stage does not write keeps its contents. -/
theorem keepB (X : Valuation τ sig (Elt F)) (r : Ref sig .tc) (h : r ∉ WB) : after opsB X (Proc.devRef .tc r) = X (Proc.devRef .tc r) :=
  after_of_writes_sub opsB X opsB_writes h

theorem opsC_sub : (opsC : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩
theorem opsC_fresh : (opsC : List (HloOp τ sig (Elt F))).Forall fun op => op.fresh = ∅ := by
  simp only [List.Forall]; repeat' constructor
theorem opsC_writes : (opsC : List (HloOp τ sig (Elt F))).Forall fun op => op.writes ⊆ (WC.map (Proc.devRef (τ := τ) .tc)).toFinset := by
  simp only [List.Forall]
  repeat' apply And.intro
  all_goals writes_one
/-- A buffer the stage does not write keeps its contents. -/
theorem keepC (X : Valuation τ sig (Elt F)) (r : Ref sig .tc) (h : r ∉ WC) : after opsC X (Proc.devRef .tc r) = X (Proc.devRef .tc r) :=
  after_of_writes_sub opsC X opsC_writes h

theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem opsD_fresh : (opsD : List (HloOp τ sig (Elt F))).Forall fun op => op.fresh = ∅ := by
  simp only [List.Forall]; repeat' constructor
theorem opsD_writes : (opsD : List (HloOp τ sig (Elt F))).Forall fun op => op.writes ⊆ (WD.map (Proc.devRef (τ := τ) .tc)).toFinset := by
  simp only [List.Forall]
  repeat' apply And.intro
  all_goals writes_one
/-- A buffer the stage does not write keeps its contents. -/
theorem keepD (X : Valuation τ sig (Elt F)) (r : Ref sig .tc) (h : r ∉ WD) : after opsD X (Proc.devRef .tc r) = X (Proc.devRef .tc r) :=
  after_of_writes_sub opsD X opsD_writes h

set_option maxRecDepth 4096 in
set_option maxHeartbeats 4000000 in
/-- The program is that straight line: the two windows and the called functions unfolded, the sequencing
    reassociated. -/
theorem main_eq (c : Dev nD) : main (F := F) c = seq ops := by
  simp only [main, main_part0, main_part1, fn_relu.body, fn_relu_0.body, fn_var.body, fn_where.body, ops, seq_append, seq, bind_assoc, pure_bind]

/-! ## What each stage leaves, from any contents `X` it starts from -/

/-- The destination indices. -/
theorem A_v3 (X : Valuation τ sig (Elt F)) : after opsA X (Proc.devRef .tc main_v3) = dstIdx (X (Proc.devRef .tc main_arg1)) := by
  after_results_simp
  rfl

set_option maxHeartbeats 4000000 in
/-- The source's state, -/
theorem A_v25 (X : Valuation τ sig (Elt F)) : after opsA X (Proc.devRef .tc main_v25)
    = Host.gather gather_S50000x128_S800000x1_S800000x128_1_0_n_n_0_1_1128 (X (Proc.devRef .tc main_arg0)) (rowIdx (srcIdx (X (Proc.devRef .tc main_arg1)))) := by
  after_results_simp
  rfl

set_option maxHeartbeats 4000000 in
/-- the destination's state, -/
theorem A_v32 (X : Valuation τ sig (Elt F)) : after opsA X (Proc.devRef .tc main_v32)
    = Host.gather gather_S50000x128_S800000x1_S800000x128_1_0_n_n_0_1_1128 (X (Proc.devRef .tc main_arg0)) (rowIdx (dstIdx (X (Proc.devRef .tc main_arg1)))) := by
  after_results_simp
  rfl

set_option maxHeartbeats 4000000 in
/-- and the difference of the two ends' coordinates. -/
theorem A_v18 (X : Valuation τ sig (Elt F)) : after opsA X (Proc.devRef .tc main_v18)
    = subf (Host.gather gather_S50000x3_S800000x1_S800000x3_1_0_n_n_0_1_13 (X (Proc.devRef .tc main_arg3)) (rowIdx (dstIdx (X (Proc.devRef .tc main_arg1)))))
        (Host.gather gather_S50000x3_S800000x1_S800000x3_1_0_n_n_0_1_13 (X (Proc.devRef .tc main_arg3)) (rowIdx (srcIdx (X (Proc.devRef .tc main_arg1))))) := by
  after_results_simp
  rfl

/-- The four pieces side by side. -/
theorem B1_v33 (X : Valuation τ sig (Elt F)) : after opsB1 X (Proc.devRef .tc main_v33)
    = concatenate S800000x291 1 [⟨S800000x128, (X (Proc.devRef .tc main_v25))⟩, ⟨S800000x128, (X (Proc.devRef .tc main_v32))⟩, ⟨S800000x32, (X (Proc.devRef .tc main_arg2))⟩, ⟨S800000x3, (X (Proc.devRef .tc main_v18))⟩]
        concatenates_S800000x128_S800000x128_S800000x32_S800000x3_S800000x291_d1 := by
  simp only [after_cons, after_nil]
  rw [nary_result]
  rfl

set_option maxHeartbeats 4000000 in
/-- The messages summed at their destinations, of the edge features and destination indices the stage finds. -/
theorem B_v45 (X : Valuation τ sig (Elt F)) : after opsB X (Proc.devRef .tc main_v45)
    = aggr (X (Proc.devRef .tc main_v3)) (messages (X (Proc.devRef .tc main_v33)) (X (Proc.devRef .tc main_arg4)) (X (Proc.devRef .tc main_arg5)) (X (Proc.devRef .tc main_arg6)) (X (Proc.devRef .tc main_arg7))) := by
  after_results_simp
  rfl

set_option maxHeartbeats 4000000 in
/-- The residual sum, of the state and the aggregate the stage finds. -/
theorem C_v56 (X : Valuation τ sig (Elt F)) : after opsC X (Proc.devRef .tc main_v56)
    = preNorm (X (Proc.devRef .tc main_arg0)) (X (Proc.devRef .tc main_v45)) (X (Proc.devRef .tc main_arg8)) (X (Proc.devRef .tc main_arg9)) (X (Proc.devRef .tc main_arg10)) (X (Proc.devRef .tc main_arg11)) := by
  after_results_simp
  rfl

set_option maxHeartbeats 4000000 in
/-- The layer norm of the residual sum the stage finds. -/
theorem D_v74 (X : Valuation τ sig (Elt F)) : after opsD X (Proc.devRef .tc main_v74)
    = layerNorm (X (Proc.devRef .tc main_v56)) (X (Proc.devRef .tc main_arg12)) (X (Proc.devRef .tc main_arg13)) := by
  after_results_simp
  rfl

/-! ## The whole line -/

theorem ops_sub : (ops : List (HloOp τ sig (Elt F))).Forall fun op => op.bufs ⊆ tcRefs τ sig :=
  forall_append (forall_append (forall_append (forall_append opsA_sub opsB1_sub) opsB_sub) opsC_sub) opsD_sub

theorem ops_fresh : (ops : List (HloOp τ sig (Elt F))).Forall fun op => op.fresh = ∅ :=
  forall_append (forall_append (forall_append (forall_append opsA_fresh opsB1_fresh) opsB_fresh) opsC_fresh) opsD_fresh

/-- A buffer no stage writes ends as it started. -/
theorem keep (V : Valuation τ sig (Elt F)) (r : Ref sig .tc) (hA : r ∉ WA) (hB1 : r ∉ WB1) (hB : r ∉ WB) (hC : r ∉ WC) (hD : r ∉ WD) :
    after ops V (Proc.devRef .tc r) = V (Proc.devRef .tc r) := by
  simp only [ops, after_append]
  rw [keepD _ r hD, keepC _ r hC, keepB _ r hB, keepB1 _ r hB1, keepA _ r hA]

/-- The result buffer ends at `result` of the fourteen arguments: the layer norm stage reads the residual sum the
    update stage left, that one the aggregate the message stage left, that one the edge features laid side by side
    from the four gathers of the first stage; every other buffer a stage reads is an argument, which no stage writes,
    or the destination indices, written in the first stage only. -/
theorem ops_result (V : Valuation τ sig (Elt F)) :
    after ops V (Proc.devRef .tc main_v74) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [ops, after_append]
  rw [D_v74, C_v56, keepC _ main_arg12 (by decide), keepC _ main_arg13 (by decide), B_v45, keepB _ main_arg0 (by decide), keepB _ main_arg8 (by decide), keepB _ main_arg9 (by decide), keepB _ main_arg10 (by decide), keepB _ main_arg11 (by decide), keepB _ main_arg12 (by decide), keepB _ main_arg13 (by decide),
    B1_v33, keepB1 _ main_v3 (by decide), keepB1 _ main_arg4 (by decide), keepB1 _ main_arg5 (by decide), keepB1 _ main_arg6 (by decide), keepB1 _ main_arg7 (by decide), keepB1 _ main_arg0 (by decide), keepB1 _ main_arg8 (by decide), keepB1 _ main_arg9 (by decide), keepB1 _ main_arg10 (by decide), keepB1 _ main_arg11 (by decide), keepB1 _ main_arg12 (by decide), keepB1 _ main_arg13 (by decide),
    A_v25, A_v32, A_v18, A_v3, keepA _ main_arg2 (by decide), keepA _ main_arg4 (by decide), keepA _ main_arg5 (by decide), keepA _ main_arg6 (by decide), keepA _ main_arg7 (by decide), keepA _ main_arg0 (by decide), keepA _ main_arg8 (by decide), keepA _ main_arg9 (by decide), keepA _ main_arg10 (by decide), keepA _ main_arg11 (by decide), keepA _ main_arg12 (by decide), keepA _ main_arg13 (by decide)]
  rfl

theorem scopedRefs_eq : (Finset.univ.filter fun b : Ref sig .tc => b.isScoped) = ∅ := by decide
theorem scopedSems_eq : (Finset.univ.filter fun sm : SemLoc sig => sm.isScoped .tc) = ∅ := by decide

/-- THE RUN: on every device, for any float values, from any memory with zero counters, every weakly fair execution
    of the reference terminates with the result buffer at `result` of the argument arrays as launched, and the
    argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v74) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v74).trans (ops_result _),
      (h c main_arg0).trans (keep _ main_arg0 (by decide) (by decide) (by decide) (by decide) (by decide)),
      (h c main_arg1).trans (keep _ main_arg1 (by decide) (by decide) (by decide) (by decide) (by decide)),
      (h c main_arg2).trans (keep _ main_arg2 (by decide) (by decide) (by decide) (by decide) (by decide)),
      (h c main_arg3).trans (keep _ main_arg3 (by decide) (by decide) (by decide) (by decide) (by decide)),
      (h c main_arg4).trans (keep _ main_arg4 (by decide) (by decide) (by decide) (by decide) (by decide)),
      (h c main_arg5).trans (keep _ main_arg5 (by decide) (by decide) (by decide) (by decide) (by decide)),
      (h c main_arg6).trans (keep _ main_arg6 (by decide) (by decide) (by decide) (by decide) (by decide)),
      (h c main_arg7).trans (keep _ main_arg7 (by decide) (by decide) (by decide) (by decide) (by decide)),
      (h c main_arg8).trans (keep _ main_arg8 (by decide) (by decide) (by decide) (by decide) (by decide)),
      (h c main_arg9).trans (keep _ main_arg9 (by decide) (by decide) (by decide) (by decide) (by decide)),
      (h c main_arg10).trans (keep _ main_arg10 (by decide) (by decide) (by decide) (by decide) (by decide)),
      (h c main_arg11).trans (keep _ main_arg11 (by decide) (by decide) (by decide) (by decide) (by decide)),
      (h c main_arg12).trans (keep _ main_arg12 (by decide) (by decide) (by decide) (by decide) (by decide)),
      (h c main_arg13).trans (keep _ main_arg13 (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.Hand

end
-- ==== Proof.lean ====
/-
  The certificate of a graph-network layer's kernel against its reference: three frames, the idealization's
  sanction, and the equality of the two idealized programs' results.

  Both programs gather the end points' states and coordinates along 800000 edges, run every edge's 291 features
  through a two-layer perceptron, sum the messages at their destination nodes, and layer-normalise each node's state
  plus a second perceptron of the state and the aggregate. The kernel program runs the two perceptrons as pipelined
  regions over row blocks (the edge rows padded to a whole number of blocks and the padding dropped again; the update's
  first weight matrix in two halves); the reference multiplies whole matrices. Over the extended reals every row of
  every block is the same function of the same rows of the arguments (`Bridge.kernel_result`), a sum over 256 terms
  being the sum of its two halves. The frames: the kernel programs' runs are their five segments' (`run_named`), the
  reference's its host operations' (`Hand.run`); the ideal pass rewrote nothing, so there is nothing to sanction.
-/
import proofs.«149764_j29669634081214_1_alg».proof.Defs
import proofs.«149764_j29669634081214_1_alg».proof.Proof.Gen.Kernel
import proofs.«149764_j29669634081214_1_alg».proof.Proof.Gen.KernelIdeal
import proofs.«149764_j29669634081214_1_alg».proof.Proof.Gen.ReferenceIdeal
import proofs.«149764_j29669634081214_1_alg».proof.Proof.Gen.Pre_finite_inputs
import proofs.«149764_j29669634081214_1_alg».proof.Proof.KKeep
import proofs.«149764_j29669634081214_1_alg».proof.Proof.KiValue
import proofs.«149764_j29669634081214_1_alg».proof.Proof.RefRun
import Idealize.ShloMosaic.Adequacy
import Idealize.ShloMosaic.Init

noncomputable section

namespace Cert.Proof

open Idealize.ShloMosaic Idealize.SL.Sem

/-- The kernel program as printed runs to the end, faultless, its arguments unchanged. -/
theorem frame_kernel : Cert.frame_Kernel := fun m ρ _ =>
  (θ_run Cert.Kernel.defs _ _).mono (fun _ h c => (h c).2) (Cert.Kernel.Hand.run_named (F := Bits) m ρ)

/-- So does its idealization. -/
theorem frame_kernelIdeal : Cert.frame_KernelIdeal := fun m ρ _ =>
  (θ_run Cert.KernelIdeal.defs _ _).mono (fun _ h c => (h c).2) (Cert.KernelIdeal.Hand.run_named (F := Ideal) m ρ)

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- From memories agreeing on the arguments both idealized programs run, and the reference's result is the kernel
    program's: both are the reference's function of the arguments. -/
theorem algebraic : Cert.algebraic_KernelIdeal_ReferenceIdeal := by
  intro m ρ m' ρ' _ hagree
  refine ⟨fun c => Cert.KernelIdeal.Hand.W5 m ρ c (Proc.devRef .tc Cert.KernelIdeal.main_v42),
    Cert.KernelIdeal.Hand.run_named (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10, h11, h12, h13⟩ := hagree c
  rw [h0, h1, h2, h3, h4, h5, h6, h7, h8, h9, h10, h11, h12, h13]
  exact (Cert.Proof.Bridge.kernel_result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
